-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x6400000 : Shape := ⟨2, ![2, 6400000]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x3 .f32) (main_arg1 : IVec S2x6400000 32) (main_arg2 : FVec F S3x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg2
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x3 : Shape := ⟨2, ![100000, 3]⟩
abbrev S2x6400000 : Shape := ⟨2, ![2, 6400000]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x32 : Shape := ⟨2, ![100000, 32]⟩
abbrev S20000x3 : Shape := ⟨2, ![20000, 3]⟩
abbrev S20000x32 : Shape := ⟨2, ![20000, 32]⟩
abbrev S6500000x32 : Shape := ⟨2, ![6500000, 32]⟩
abbrev S1x32 : Shape := ⟨2, ![1, 32]⟩
abbrev S100000x1 : Shape := ⟨2, ![100000, 1]⟩
abbrev S20000x1 : Shape := ⟨2, ![20000, 1]⟩
abbrev S1x1 : Shape := ⟨2, ![1, 1]⟩

abbrev nBuf : Space → Nat
  | .hbm => 101
  | .vmem => 30
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S3x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x6400000, .i32⟩
  | .hbm, ⟨10, _⟩ => ⟨S6400000, .i32⟩
  | .hbm, ⟨11, _⟩ => ⟨S6500000, .i32⟩
  | .hbm, ⟨12, _⟩ => ⟨S1x6400000, .i32⟩
  | .hbm, ⟨13, _⟩ => ⟨S6400000, .i32⟩
  | .hbm, ⟨14, _⟩ => ⟨S6500000, .i32⟩
  | .hbm, ⟨15, _⟩ => ⟨S_, .f32⟩
  | .hbm, ⟨16, _⟩ => ⟨S6500000, .f32⟩
  | .hbm, ⟨17, _⟩ => ⟨S_, .f32⟩
  | .hbm, ⟨18, _⟩ => ⟨S100000, .f32⟩
  | .hbm, ⟨19, _⟩ => ⟨S6500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S_, .i32⟩
  | .hbm, ⟨39, _⟩ => ⟨S6500000, .i32⟩
  | .hbm, ⟨40, _⟩ => ⟨S6500000, .i1⟩
  | .hbm, ⟨41, _⟩ => ⟨S_, .i32⟩
  | .hbm, ⟨42, _⟩ => ⟨S6500000, .i32⟩
  | .hbm, ⟨43, _⟩ => ⟨S6500000, .i32⟩
  | .hbm, ⟨44, _⟩ => ⟨S6500000, .i32⟩
  | .hbm, ⟨45, _⟩ => ⟨S6500000x1, .i32⟩
  | .hbm, ⟨46, _⟩ => ⟨S6500000, .f32⟩
  | .hbm, ⟨47, _⟩ => ⟨S6500000, .f32⟩
  | .hbm, ⟨48, _⟩ => ⟨S100000x32, .f32⟩
  | .hbm, ⟨49, _⟩ => ⟨S_, .i32⟩
  | .hbm, ⟨50, _⟩ => ⟨S6500000, .i32⟩
  | .hbm, ⟨51, _⟩ => ⟨S6500000, .i1⟩
  | .hbm, ⟨52, _⟩ => ⟨S_, .i32⟩
  | .hbm, ⟨53, _⟩ => ⟨S6500000, .i32⟩
  | .hbm, ⟨54, _⟩ => ⟨S6500000, .i32⟩
  | .hbm, ⟨55, _⟩ => ⟨S6500000, .i32⟩
  | .hbm, ⟨56, _⟩ => ⟨S6500000x1, .i32⟩
  | .hbm, ⟨57, _⟩ => ⟨S6500000x32, .f32⟩
  | .hbm, ⟨58, _⟩ => ⟨S6500000x1, .f32⟩
  | .hbm, ⟨59, _⟩ => ⟨S6500000x32, .f32⟩
  | .hbm, ⟨60, _⟩ => ⟨S6500000x32, .f32⟩
  | .hbm, ⟨61, _⟩ => ⟨S_, .f32⟩
  | .hbm, ⟨62, _⟩ => ⟨S100000x32, .f32⟩
  | .hbm, ⟨63, _⟩ => ⟨S6500000x1, .i32⟩
  | .hbm, ⟨64, _⟩ => ⟨S100000x32, .f32⟩
  | .hbm, ⟨65, _⟩ => ⟨S100000x32, .f32⟩
  | .hbm, ⟨66, _⟩ => ⟨S100000x32, .f32⟩
  | .hbm, ⟨67, _⟩ => ⟨S_, .i32⟩
  | .hbm, ⟨68, _⟩ => ⟨S6500000, .i32⟩
  | .hbm, ⟨69, _⟩ => ⟨S6500000, .i1⟩
  | .hbm, ⟨70, _⟩ => ⟨S_, .i32⟩
  | .hbm, ⟨71, _⟩ => ⟨S6500000, .i32⟩
  | .hbm, ⟨72, _⟩ => ⟨S6500000, .i32⟩
  | .hbm, ⟨73, _⟩ => ⟨S6500000, .i32⟩
  | .hbm, ⟨74, _⟩ => ⟨S6500000x1, .i32⟩
  | .hbm, ⟨75, _⟩ => ⟨S6500000x32, .f32⟩
  | .hbm, ⟨76, _⟩ => ⟨S6500000x1, .f32⟩
  | .hbm, ⟨77, _⟩ => ⟨S6500000x32, .f32⟩
  | .hbm, ⟨78, _⟩ => ⟨S6500000x32, .f32⟩
  | .hbm, ⟨79, _⟩ => ⟨S_, .f32⟩
  | .hbm, ⟨80, _⟩ => ⟨S100000x32, .f32⟩
  | .hbm, ⟨81, _⟩ => ⟨S6500000x1, .i32⟩
  | .hbm, ⟨82, _⟩ => ⟨S100000x32, .f32⟩
  | .hbm, ⟨83, _⟩ => ⟨S100000x32, .f32⟩
  | .hbm, ⟨84, _⟩ => ⟨S100000x1, .f32⟩
  | .hbm, ⟨85, _⟩ => ⟨S_, .i32⟩
  | .hbm, ⟨86, _⟩ => ⟨S6500000, .i32⟩
  | .hbm, ⟨87, _⟩ => ⟨S6500000, .i1⟩
  | .hbm, ⟨88, _⟩ => ⟨S_, .i32⟩
  | .hbm, ⟨89, _⟩ => ⟨S6500000, .i32⟩
  | .hbm, ⟨90, _⟩ => ⟨S6500000, .i32⟩
  | .hbm, ⟨91, _⟩ => ⟨S6500000, .i32⟩
  | .hbm, ⟨92, _⟩ => ⟨S6500000x1, .i32⟩
  | .hbm, ⟨93, _⟩ => ⟨S6500000x1, .f32⟩
  | .hbm, ⟨94, _⟩ => ⟨S6500000x1, .f32⟩
  | .hbm, ⟨95, _⟩ => ⟨S6500000x1, .f32⟩
  | .hbm, ⟨96, _⟩ => ⟨S_, .f32⟩
  | .hbm, ⟨97, _⟩ => ⟨S100000x1, .f32⟩
  | .hbm, ⟨98, _⟩ => ⟨S6500000x1, .i32⟩
  | .hbm, ⟨99, _⟩ => ⟨S100000x1, .f32⟩
  | .hbm, ⟨100, _⟩ => ⟨S100000x1, .f32⟩
  | .local _ .vmem, ⟨0, _⟩ => ⟨S20000x3, .f32⟩
  | .local _ .vmem, ⟨1, _⟩ => ⟨S20000x3, .f32⟩
  | .local _ .vmem, ⟨2, _⟩ => ⟨S3x32, .f32⟩
  | .local _ .vmem, ⟨3, _⟩ => ⟨S20000x32, .f32⟩
  | .local _ .vmem, ⟨4, _⟩ => ⟨S20000x32, .f32⟩
  | .local _ .vmem, ⟨5, _⟩ => ⟨S20000x32, .f32⟩
  | .local _ .vmem, ⟨6, _⟩ => ⟨S20000x32, .f32⟩
  | .local _ .vmem, ⟨7, _⟩ => ⟨S32, .f32⟩
  | .local _ .vmem, ⟨8, _⟩ => ⟨S20000x32, .f32⟩
  | .local _ .vmem, ⟨9, _⟩ => ⟨S20000x32, .f32⟩
  | .local _ .vmem, ⟨10, _⟩ => ⟨S20000x32, .f32⟩
  | .local _ .vmem, ⟨11, _⟩ => ⟨S20000x32, .f32⟩
  | .local _ .vmem, ⟨12, _⟩ => ⟨S32x32, .f32⟩
  | .local _ .vmem, ⟨13, _⟩ => ⟨S20000x32, .f32⟩
  | .local _ .vmem, ⟨14, _⟩ => ⟨S20000x32, .f32⟩
  | .local _ .vmem, ⟨15, _⟩ => ⟨S20000x32, .f32⟩
  | .local _ .vmem, ⟨16, _⟩ => ⟨S20000x32, .f32⟩
  | .local _ .vmem, ⟨17, _⟩ => ⟨S32, .f32⟩
  | .local _ .vmem, ⟨18, _⟩ => ⟨S20000x32, .f32⟩
  | .local _ .vmem, ⟨19, _⟩ => ⟨S20000x32, .f32⟩
  | .local _ .vmem, ⟨20, _⟩ => ⟨S20000x32, .f32⟩
  | .local _ .vmem, ⟨21, _⟩ => ⟨S20000x32, .f32⟩
  | .local _ .vmem, ⟨22, _⟩ => ⟨S32x1, .f32⟩
  | .local _ .vmem, ⟨23, _⟩ => ⟨S20000x1, .f32⟩
  | .local _ .vmem, ⟨24, _⟩ => ⟨S20000x1, .f32⟩
  | .local _ .vmem, ⟨25, _⟩ => ⟨S20000x1, .f32⟩
  | .local _ .vmem, ⟨26, _⟩ => ⟨S20000x1, .f32⟩
  | .local _ .vmem, ⟨27, _⟩ => ⟨S1, .f32⟩
  | .local _ .vmem, ⟨28, _⟩ => ⟨S20000x1, .f32⟩
  | .local _ .vmem, ⟨29, _⟩ => ⟨S20000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S20000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S20000x3_S20000x3_0_0 : ∀ a, (![0, 0] : Fin 2 → Nat) a + S20000x3.size a ≤ S20000x3.size a
  h_S20000x3 : 0 < S20000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S20000x32_S20000x32_0_0 : ∀ a, (![0, 0] : Fin 2 → Nat) a + S20000x32.size a ≤ S20000x32.size a
  h_S20000x32 : 0 < S20000x32.numel
  bcast_S6500000x1_S6500000x32_0_1 : S6500000x1.BroadcastsInDim S6500000x32 (![0, 1] : Fin 2 → Fin S6500000x32.rank)
  bcast_S_S100000x32 : S_.BroadcastsInDim S100000x32 (![] : Fin 0 → Fin S100000x32.rank)
  shapeCasts_S20000x32_S20000x32 : S20000x32.ShapeCasts S20000x32
  inb_S32_S32_0 : ∀ a, (![0] : Fin 1 → Nat) a + S32.size a ≤ S32.size a
  h_S32 : 0 < S32.numel
  shapeCasts_S32_S1x32 : S32.ShapeCasts S1x32
  broadcasts_S1x32_S20000x32 : S1x32.Broadcasts S20000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S20000x1_S20000x1_0_0 : ∀ a, (![0, 0] : Fin 2 → Nat) a + S20000x1.size a ≤ S20000x1.size a
  h_S20000x1 : 0 < S20000x1.numel
  bcast_S_S100000x1 : S_.BroadcastsInDim S100000x1 (![] : Fin 0 → Fin S100000x1.rank)
  shapeCasts_S20000x1_S20000x1 : S20000x1.ShapeCasts S20000x1
  inb_S1_S1_0 : ∀ a, (![0] : Fin 1 → Nat) a + S1.size a ≤ S1.size a
  h_S1 : 0 < S1.numel
  shapeCasts_S1_S1x1 : S1.ShapeCasts S1x1
  broadcasts_S1x1_S20000x1 : S1x1.Broadcasts S20000x1
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S20000x3_S3x32_S20000x32_1_0_0_1_n_n_wf : DotDims.WF S20000x3 S3x32 S20000x32 [1] [0] [0] [1] [] []
  gather_S100000x32_S6500000x1_S6500000x32_1_0_n_n_0_1_132_wf : GatherDims.WF S100000x32 S6500000x1 S6500000x32 [1] [0] [] [0] [] 1 ![1, 32]
  scatter_S100000x32_S6500000x1_S6500000x32_1_0_0_1_wf : ScatterDims.WF S100000x32 S6500000x1 S6500000x32 [1] [0] [0] 1
  dot_S20000x32_S32x32_S20000x32_1_0_0_1_n_n_wf : DotDims.WF S20000x32 S32x32 S20000x32 [1] [0] [0] [1] [] []
  dot_S20000x32_S32x1_S20000x1_1_0_0_1_n_n_wf : DotDims.WF S20000x32 S32x1 S20000x1 [1] [0] [0] [1] [] []
  gather_S100000x1_S6500000x1_S6500000x1_1_0_n_n_0_1_11_wf : GatherDims.WF S100000x1 S6500000x1 S6500000x1 [1] [0] [] [0] [] 1 ![1, 1]
  scatter_S100000x1_S6500000x1_S6500000x1_1_0_0_1_wf : ScatterDims.WF S100000x1 S6500000x1 S6500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x3.size a ≤ S100000x3.size a
  hwx0_0 : ∀ i : grid0.Coords, EltTy.bits .f32 = 32 ∨ (Rect.block (s := S100000x3) S20000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x32.size a ≤ S100000x32.size a
  hwx0_2 : ∀ i : grid0.Coords, EltTy.bits .f32 = 32 ∨ (Rect.block (s := S100000x32) S20000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S100000x32.size a
  hwx1_0 : ∀ i : grid1.Coords, EltTy.bits .f32 = 32 ∨ (Rect.block (s := S100000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x32.size a ≤ S100000x32.size a
  hwx1_2 : ∀ i : grid1.Coords, EltTy.bits .f32 = 32 ∨ (Rect.block (s := S100000x32) S20000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S100000x32.size a
  hwx2_0 : ∀ i : grid2.Coords, EltTy.bits .f32 = 32 ∨ (Rect.block (s := S100000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x32.size a ≤ S100000x32.size a
  hwx2_2 : ∀ i : grid2.Coords, EltTy.bits .f32 = 32 ∨ (Rect.block (s := S100000x32) S20000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x32.size a ≤ S100000x32.size a
  hwx3_0 : ∀ i : grid3.Coords, EltTy.bits .f32 = 32 ∨ (Rect.block (s := S100000x32) S20000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32.size a ≤ S32.size a
  hwx3_1 : ∀ i : grid3.Coords, EltTy.bits .f32 = 32 ∨ (Rect.block (s := S32) S32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x32.size a ≤ S100000x32.size a
  hwx3_2 : ∀ i : grid3.Coords, EltTy.bits .f32 = 32 ∨ (Rect.block (s := S100000x32) S20000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x32.size a ≤ S100000x32.size a
  hwx4_0 : ∀ i : grid4.Coords, EltTy.bits .f32 = 32 ∨ (Rect.block (s := S100000x32) S20000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x1.size a ≤ S100000x1.size a
  hwx4_2 : ∀ i : grid4.Coords, EltTy.bits .f32 = 32 ∨ (Rect.block (s := S100000x1) S20000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x1.size a ≤ S100000x1.size a
  hwx5_0 : ∀ i : grid5.Coords, EltTy.bits .f32 = 32 ∨ (Rect.block (s := S100000x1) S20000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1.size a ≤ S1.size a
  hwx5_1 : ∀ i : grid5.Coords, EltTy.bits .f32 = 32 ∨ (Rect.block (s := S1) S1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x1.size a ≤ S100000x1.size a
  hwx5_2 : ∀ i : grid5.Coords, EltTy.bits .f32 = 32 ∨ (Rect.block (s := S100000x1) S20000x1.size (cc5_transform_2 i) (hinb5_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S20000x3_S3x32_S20000x32_1_0_0_1_n_n : DotDims S20000x3 S3x32 S20000x32 where
  lhsContracting := [1]
  rhsContracting := [0]
  lhsNonContracting := [0]
  rhsNonContracting := [1]
  lhsBatch := []
  rhsBatch := []
  wf := dot_S20000x3_S3x32_S20000x32_1_0_0_1_n_n_wf
def gather_S100000x32_S6500000x1_S6500000x32_1_0_n_n_0_1_132 : GatherDims S100000x32 S6500000x1 S6500000x32 where
  offsetDims := [1]
  collapsedSliceDims := [0]
  operandBatchingDims := []
  startIndicesBatchingDims := []
  startIndexMap := [0]
  indexVectorDim := 1
  sliceSizes := ![1, 32]
  wf := gather_S100000x32_S6500000x1_S6500000x32_1_0_n_n_0_1_132_wf
def scatter_S100000x32_S6500000x1_S6500000x32_1_0_0_1 : ScatterDims S100000x32 S6500000x1 S6500000x32 where
  updateWindowDims := [1]
  insertedWindowDims := [0]
  scatterDimsToOperandDims := [0]
  indexVectorDim := 1
  wf := scatter_S100000x32_S6500000x1_S6500000x32_1_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def dot_S20000x32_S32x1_S20000x1_1_0_0_1_n_n : DotDims S20000x32 S32x1 S20000x1 where
  lhsContracting := [1]
  rhsContracting := [0]
  lhsNonContracting := [0]
  rhsNonContracting := [1]
  lhsBatch := []
  rhsBatch := []
  wf := dot_S20000x32_S32x1_S20000x1_1_0_0_1_n_n_wf
def gather_S100000x1_S6500000x1_S6500000x1_1_0_n_n_0_1_11 : GatherDims S100000x1 S6500000x1 S6500000x1 where
  offsetDims := [1]
  collapsedSliceDims := [0]
  operandBatchingDims := []
  startIndicesBatchingDims := []
  startIndexMap := [0]
  indexVectorDim := 1
  sliceSizes := ![1, 1]
  wf := gather_S100000x1_S6500000x1_S6500000x1_1_0_n_n_0_1_11_wf
def scatter_S100000x1_S6500000x1_S6500000x1_1_0_0_1 : ScatterDims S100000x1 S6500000x1 S6500000x1 where
  updateWindowDims := [1]
  insertedWindowDims := [0]
  scatterDimsToOperandDims := [0]
  indexVectorDim := 1
  wf := scatter_S100000x1_S6500000x1_S6500000x1_1_0_0_1_wf

abbrev win0_0 : Pipeline.Window sig grid0 :=
  Pipeline.Window.ofSpec (Memref.whole main_arg0) S20000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S20000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S20000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S20000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S20000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S20000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S20000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S20000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S20000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S20000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x3 : Shape := ⟨2, ![100000, 3]⟩
abbrev S2x6400000 : Shape := ⟨2, ![2, 6400000]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x32 : Shape := ⟨2, ![100000, 32]⟩
abbrev S6500000x32 : Shape := ⟨2, ![6500000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S3x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x6400000, .i32⟩
  | .hbm, ⟨10, _⟩ => ⟨S6400000, .i32⟩
  | .hbm, ⟨11, _⟩ => ⟨S6500000, .i32⟩
  | .hbm, ⟨12, _⟩ => ⟨S1x6400000, .i32⟩
  | .hbm, ⟨13, _⟩ => ⟨S6400000, .i32⟩
  | .hbm, ⟨14, _⟩ => ⟨S6500000, .i32⟩
  | .hbm, ⟨15, _⟩ => ⟨S_, .f32⟩
  | .hbm, ⟨16, _⟩ => ⟨S6500000, .f32⟩
  | .hbm, ⟨17, _⟩ => ⟨S_, .f32⟩
  | .hbm, ⟨18, _⟩ => ⟨S100000, .f32⟩
  | .hbm, ⟨19, _⟩ => ⟨S6500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S_, .i32⟩
  | .hbm, ⟨39, _⟩ => ⟨S6500000, .i32⟩
  | .hbm, ⟨40, _⟩ => ⟨S6500000, .i1⟩
  | .hbm, ⟨41, _⟩ => ⟨S_, .i32⟩
  | .hbm, ⟨42, _⟩ => ⟨S6500000, .i32⟩
  | .hbm, ⟨43, _⟩ => ⟨S6500000, .i32⟩
  | .hbm, ⟨44, _⟩ => ⟨S6500000, .i32⟩
  | .hbm, ⟨45, _⟩ => ⟨S6500000x1, .i32⟩
  | .hbm, ⟨46, _⟩ => ⟨S6500000, .f32⟩
  | .hbm, ⟨47, _⟩ => ⟨S6500000, .f32⟩
  | .hbm, ⟨48, _⟩ => ⟨S100000x32, .f32⟩
  | .hbm, ⟨49, _⟩ => ⟨S_, .i32⟩
  | .hbm, ⟨50, _⟩ => ⟨S6500000, .i32⟩
  | .hbm, ⟨51, _⟩ => ⟨S6500000, .i1⟩
  | .hbm, ⟨52, _⟩ => ⟨S_, .i32⟩
  | .hbm, ⟨53, _⟩ => ⟨S6500000, .i32⟩
  | .hbm, ⟨54, _⟩ => ⟨S6500000, .i32⟩
  | .hbm, ⟨55, _⟩ => ⟨S6500000, .i32⟩
  | .hbm, ⟨56, _⟩ => ⟨S6500000x1, .i32⟩
  | .hbm, ⟨57, _⟩ => ⟨S6500000x32, .f32⟩
  | .hbm, ⟨58, _⟩ => ⟨S6500000x1, .f32⟩
  | .hbm, ⟨59, _⟩ => ⟨S6500000x32, .f32⟩
  | .hbm, ⟨60, _⟩ => ⟨S6500000x32, .f32⟩
  | .hbm, ⟨61, _⟩ => ⟨S_, .f32⟩
  | .hbm, ⟨62, _⟩ => ⟨S100000x32, .f32⟩
  | .hbm, ⟨63, _⟩ => ⟨S6500000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S6500000, .i32⟩
  | .hbm, ⟨74, _⟩ => ⟨S6500000, .i1⟩
  | .hbm, ⟨75, _⟩ => ⟨S_, .i32⟩
  | .hbm, ⟨76, _⟩ => ⟨S6500000, .i32⟩
  | .hbm, ⟨77, _⟩ => ⟨S6500000, .i32⟩
  | .hbm, ⟨78, _⟩ => ⟨S6500000, .i32⟩
  | .hbm, ⟨79, _⟩ => ⟨S6500000x1, .i32⟩
  | .hbm, ⟨80, _⟩ => ⟨S6500000x32, .f32⟩
  | .hbm, ⟨81, _⟩ => ⟨S6500000x1, .f32⟩
  | .hbm, ⟨82, _⟩ => ⟨S6500000x32, .f32⟩
  | .hbm, ⟨83, _⟩ => ⟨S6500000x32, .f32⟩
  | .hbm, ⟨84, _⟩ => ⟨S_, .f32⟩
  | .hbm, ⟨85, _⟩ => ⟨S100000x32, .f32⟩
  | .hbm, ⟨86, _⟩ => ⟨S6500000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000x32, .f32⟩
  | .hbm, ⟨93, _⟩ => ⟨S100000x32, .f32⟩
  | .hbm, ⟨94, _⟩ => ⟨S100000x1, .f32⟩
  | .hbm, ⟨95, _⟩ => ⟨S_, .i32⟩
  | .hbm, ⟨96, _⟩ => ⟨S6500000, .i32⟩
  | .hbm, ⟨97, _⟩ => ⟨S6500000, .i1⟩
  | .hbm, ⟨98, _⟩ => ⟨S_, .i32⟩
  | .hbm, ⟨99, _⟩ => ⟨S6500000, .i32⟩
  | .hbm, ⟨100, _⟩ => ⟨S6500000, .i32⟩
  | .hbm, ⟨101, _⟩ => ⟨S6500000, .i32⟩
  | .hbm, ⟨102, _⟩ => ⟨S6500000x1, .i32⟩
  | .hbm, ⟨103, _⟩ => ⟨S6500000x1, .f32⟩
  | .hbm, ⟨104, _⟩ => ⟨S6500000x1, .f32⟩
  | .hbm, ⟨105, _⟩ => ⟨S6500000x1, .f32⟩
  | .hbm, ⟨106, _⟩ => ⟨S_, .f32⟩
  | .hbm, ⟨107, _⟩ => ⟨S100000x1, .f32⟩
  | .hbm, ⟨108, _⟩ => ⟨S6500000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x32_0_1 : S6500000x1.BroadcastsInDim S6500000x32 (![0, 1] : Fin 2 → Fin S6500000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x3_S3x32_S100000x32_1_0_0_1_n_n_wf : DotDims.WF S100000x3 S3x32 S100000x32 [1] [0] [0] [1] [] []
  gather_S100000x32_S6500000x1_S6500000x32_1_0_n_n_0_1_132_wf : GatherDims.WF S100000x32 S6500000x1 S6500000x32 [1] [0] [] [0] [] 1 ![1, 32]
  scatter_S100000x32_S6500000x1_S6500000x32_1_0_0_1_wf : ScatterDims.WF S100000x32 S6500000x1 S6500000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []
  gather_S100000x1_S6500000x1_S6500000x1_1_0_n_n_0_1_11_wf : GatherDims.WF S100000x1 S6500000x1 S6500000x1 [1] [0] [] [0] [] 1 ![1, 1]
  scatter_S100000x1_S6500000x1_S6500000x1_1_0_0_1_wf : ScatterDims.WF S100000x1 S6500000x1 S6500000x1 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000x32_S6500000x1_S6500000x32_1_0_n_n_0_1_132 : GatherDims S100000x32 S6500000x1 S6500000x32 where
  offsetDims := [1]
  collapsedSliceDims := [0]
  operandBatchingDims := []
  startIndicesBatchingDims := []
  startIndexMap := [0]
  indexVectorDim := 1
  sliceSizes := ![1, 32]
  wf := gather_S100000x32_S6500000x1_S6500000x32_1_0_n_n_0_1_132_wf
def scatter_S100000x32_S6500000x1_S6500000x32_1_0_0_1 : ScatterDims S100000x32 S6500000x1 S6500000x32 where
  updateWindowDims := [1]
  insertedWindowDims := [0]
  scatterDimsToOperandDims := [0]
  indexVectorDim := 1
  wf := scatter_S100000x32_S6500000x1_S6500000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S6500000x1_S6500000x1_1_0_n_n_0_1_11 : GatherDims S100000x1 S6500000x1 S6500000x1 where
  offsetDims := [1]
  collapsedSliceDims := [0]
  operandBatchingDims := []
  startIndicesBatchingDims := []
  startIndexMap := [0]
  indexVectorDim := 1
  sliceSizes := ![1, 1]
  wf := gather_S100000x1_S6500000x1_S6500000x1_1_0_n_n_0_1_11_wf
def scatter_S100000x1_S6500000x1_S6500000x1_1_0_0_1 : ScatterDims S100000x1 S6500000x1 S6500000x1 where
  updateWindowDims := [1]
  insertedWindowDims := [0]
  scatterDimsToOperandDims := [0]
  indexVectorDim := 1
  wf := scatter_S100000x1_S6500000x1_S6500000x1_1_0_0_1_wf

class Facts : Prop extends Facts₀ where

variable [Facts]
-- ==== Proof.Spec.lean ====
/-
  The three whole-array functions the six kernel regions compute, index by index, over the extended reals.
  A graph-convolution layer is  agg(X · W) + b  (then a ramp): the dense product and the bias / ramp step are what
  the kernel computes in its own regions and the reference on the host; the normalized aggregation is the same
  host text on both sides and is not opened here.
    * mm3x32, mm32x32, mm32x1   entry (r, j) of X · W is the sum over k of X(r, k) · W(k, j)
    * biasRelu32                entry (r, j) is max (A(r, j) + b(j)) 0
    * bias1                     entry (r, j) is A(r, j) + b(j)   (the last layer has one column and no ramp)
  The zero of the ramp is kept as the float word it is printed with: both sides carry the same word.
-/
import Idealize.ShloMosaic.Lib.ValueIdx
import Idealize.ShloMosaic.PureOps.Ideal.Laws

noncomputable section

open scoped BigOperators

namespace Cert.GCN.Spec

open Idealize.ShloMosaic Idealize.ShloMosaic.ValueIdx

/-- The rank-2 shape with the two extents, and the rank-1 shape. -/
abbrev T (a b : Nat) : Shape := ⟨2, ![a, b]⟩
abbrev T1 (a : Nat) : Shape := ⟨1, ![a]⟩

/-- First layer's dense product, [100000, 3] · [3, 32]. -/
def mm3x32 (x : FVec Ideal (T 100000 3) .f32) (w : FVec Ideal (T 3 32) .f32) : FVec Ideal (T 100000 32) .f32 :=
  fun i => ∑ k : Fin 3, x (ix2 (⟨(i 0).val, (i 0).isLt⟩ : Fin 100000) k) * w (ix2 k (⟨(i 1).val, (i 1).isLt⟩ : Fin 32))

/-- Second layer's dense product, [100000, 32] · [32, 32]. -/
def mm32x32 (x : FVec Ideal (T 100000 32) .f32) (w : FVec Ideal (T 32 32) .f32) : FVec Ideal (T 100000 32) .f32 :=
  fun i => ∑ k : Fin 32, x (ix2 (⟨(i 0).val, (i 0).isLt⟩ : Fin 100000) k) * w (ix2 k (⟨(i 1).val, (i 1).isLt⟩ : Fin 32))

/-- Third layer's dense product, [100000, 32] · [32, 1]. -/
def mm32x1 (x : FVec Ideal (T 100000 32) .f32) (w : FVec Ideal (T 32 1) .f32) : FVec Ideal (T 100000 1) .f32 :=
  fun i => ∑ k : Fin 32, x (ix2 (⟨(i 0).val, (i 0).isLt⟩ : Fin 100000) k) * w (ix2 k (⟨(i 1).val, (i 1).isLt⟩ : Fin 1))

/-- Bias along the columns, then the ramp against zero. -/
def biasRelu32 (a : FVec Ideal (T 100000 32) .f32) (b : FVec Ideal (T1 32) .f32) : FVec Ideal (T 100000 32) .f32 :=
  fun i => FloatOps.maximumf (FloatOps.addf (a i) (b (ix1 (⟨(i 1).val, (i 1).isLt⟩ : Fin 32)))) (Ideal.ofBits .f32 0x00000000#32)

/-- Bias along the one column, no ramp. -/
def bias1 (a : FVec Ideal (T 100000 1) .f32) (b : FVec Ideal (T1 1) .f32) : FVec Ideal (T 100000 1) .f32 :=
  fun i => FloatOps.addf (a i) (b (ix1 (⟨(i 1).val, (i 1).isLt⟩ : Fin 1)))

end Cert.GCN.Spec

end
-- ==== Proof.KChain.lean ====
/-
  The host side of a layer, as functions of the arrays it reads: the text both programs share.
    * src, dst     the edge list with one self loop per node appended (rows 0 and 1 of the edge array, then 0 … n-1)
    * nidx         an index vector with negative entries wrapped by n, as a column of start indices
    * deg, dis     in-degree by a scatter-add of ones along dst; its inverse square root where positive, else 0
    * norm         per edge, dis(src) · dis(dst)
    * agg32, agg1  gather rows of H along src, scale each by its edge's norm, scatter-add along dst
  Nothing here is opened by the proof: the two programs apply these same functions, and only what flows INTO them
  (the dense products, the bias / ramp steps) is compared.  out is the three layers composed, at the ideal instance.
-/
import proofs.«105554_j11390253269710_1_alg».proof.Proof.Gen.KernelIdeal
import proofs.«105554_j11390253269710_1_alg».proof.Proof.Spec

noncomputable section

namespace Cert.KernelIdeal.GCN

open Cert.KernelIdeal Cert.KernelIdeal.Gen Idealize.ShloMosaic Idealize.ShloMosaic.TcCoe Idealize.SL.Sem Idealize.ShloMosaic.StableHlo

variable {F : FTy → Type} [FloatOps F]

def src (e : (⟨S2x6400000, .i32⟩ : BufTy).Contents (Elt F)) : (⟨S6500000, .i32⟩ : BufTy).Contents (Elt F) :=
  concatenate S6500000 0 [⟨S6400000, (shapeCast _ (extractStridedSlice S1x6400000 ![0, 0] e slices_S2x6400000_S1x6400000_0_0) shapeCasts_S1x6400000_S6400000)⟩, ⟨S100000, (iotaInDim S100000 32 0)⟩] concatenates_S6400000_S100000_S6500000_d0

def dst (e : (⟨S2x6400000, .i32⟩ : BufTy).Contents (Elt F)) : (⟨S6500000, .i32⟩ : BufTy).Contents (Elt F) :=
  concatenate S6500000 0 [⟨S6400000, (shapeCast _ (extractStridedSlice S1x6400000 ![1, 0] e slices_S2x6400000_S1x6400000_1_0) shapeCasts_S1x6400000_S6400000)⟩, ⟨S100000, (iotaInDim S100000 32 0)⟩] concatenates_S6400000_S100000_S6500000_d0

def nidx (s : (⟨S6500000, .i32⟩ : BufTy).Contents (Elt F)) : (⟨S6500000x1, .i32⟩ : BufTy).Contents (Elt F) :=
  broadcastInDim S6500000x1 ![0] bcast_S6500000_S6500000x1_0 (select (cmpi .slt s (broadcastInDim S6500000 ![] bcast_S_S6500000 (constantI S_ 32 0#32))) (addi s (broadcastInDim S6500000 ![] bcast_S_S6500000 (constantI S_ 32 100000#32))) s)

def deg (d : (⟨S6500000, .i32⟩ : BufTy).Contents (Elt F)) : (⟨S100000, .f32⟩ : BufTy).Contents (Elt F) :=
  Host.scatterAdd scatter_S100000_S6500000x1_S6500000_n_0_0_1 (broadcastInDim S100000 ![] bcast_S_S100000 (constant S_ .f32 0x00000000#32)) (broadcastInDim S6500000x1 ![0] bcast_S6500000_S6500000x1_0 d) (broadcastInDim S6500000 ![] bcast_S_S6500000 (constant S_ .f32 0x3F800000#32))

def dis (d : (⟨S6500000, .i32⟩ : BufTy).Contents (Elt F)) : (⟨S100000, .f32⟩ : BufTy).Contents (Elt F) :=
  select (cmpf (F := F) .ogt (deg d) (broadcastInDim S100000 ![] bcast_S_S100000 (constant S_ .f32 0x00000000#32))) (Host.rsqrt (deg d)) (broadcastInDim S100000 ![] bcast_S_S100000 (id (constant S_ .f32 0x00000000#32)))

def norm (s d : (⟨S6500000, .i32⟩ : BufTy).Contents (Elt F)) : (⟨S6500000, .f32⟩ : BufTy).Contents (Elt F) :=
  mulf (Host.gather gather_S100000_S6500000x1_S6500000_n_0_n_n_0_1_1 (dis d) (nidx s)) (Host.gather gather_S100000_S6500000x1_S6500000_n_0_n_n_0_1_1 (dis d) (nidx d))

def agg32 (s d : (⟨S6500000, .i32⟩ : BufTy).Contents (Elt F)) (nm : (⟨S6500000, .f32⟩ : BufTy).Contents (Elt F)) (h : (⟨S100000x32, .f32⟩ : BufTy).Contents (Elt F)) : (⟨S100000x32, .f32⟩ : BufTy).Contents (Elt F) :=
  Host.scatterAdd scatter_S100000x32_S6500000x1_S6500000x32_1_0_0_1 (broadcastInDim S100000x32 ![] bcast_S_S100000x32 (constant S_ .f32 0x00000000#32)) (broadcastInDim S6500000x1 ![0] bcast_S6500000_S6500000x1_0 d) (mulf (Host.gather gather_S100000x32_S6500000x1_S6500000x32_1_0_n_n_0_1_132 h (nidx s)) (broadcastInDim S6500000x32 ![0, 1] bcast_S6500000x1_S6500000x32_0_1 (broadcastInDim S6500000x1 ![0] bcast_S6500000_S6500000x1_0 nm)))

def agg1 (s d : (⟨S6500000, .i32⟩ : BufTy).Contents (Elt F)) (nm : (⟨S6500000, .f32⟩ : BufTy).Contents (Elt F)) (h : (⟨S100000x1, .f32⟩ : BufTy).Contents (Elt F)) : (⟨S100000x1, .f32⟩ : BufTy).Contents (Elt F) :=
  Host.scatterAdd scatter_S100000x1_S6500000x1_S6500000x1_1_0_0_1 (broadcastInDim S100000x1 ![] bcast_S_S100000x1 (constant S_ .f32 0x00000000#32)) (broadcastInDim S6500000x1 ![0] bcast_S6500000_S6500000x1_0 d) (mulf (Host.gather gather_S100000x1_S6500000x1_S6500000x1_1_0_n_n_0_1_11 h (nidx s)) (broadcastInDim S6500000x1 ![0] bcast_S6500000_S6500000x1_0 nm))

/-- The three layers over the extended reals: each a dense product, the aggregation, the bias (and the ramp, twice). -/
def out (x0 : (⟨S100000x3, .f32⟩ : BufTy).Contents (Elt Ideal)) (e : (⟨S2x6400000, .i32⟩ : BufTy).Contents (Elt Ideal))
    (x2 : (⟨S3x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x1, .f32⟩ : BufTy).Contents (Elt Ideal)) (x7 : (⟨S1, .f32⟩ : BufTy).Contents (Elt Ideal)) :
    (⟨S100000x1, .f32⟩ : BufTy).Contents (Elt Ideal) :=
  Cert.GCN.Spec.bias1 (agg1 (F := Ideal) (src e) (dst e) (norm (src e) (dst e))
    (Cert.GCN.Spec.mm32x1 (Cert.GCN.Spec.biasRelu32 (agg32 (F := Ideal) (src e) (dst e) (norm (src e) (dst e))
      (Cert.GCN.Spec.mm32x32 (Cert.GCN.Spec.biasRelu32 (agg32 (F := Ideal) (src e) (dst e) (norm (src e) (dst e))
        (Cert.GCN.Spec.mm3x32 x0 x2)) x3) x4)) x5) x6)) x7

end Cert.KernelIdeal.GCN

end
-- ==== Proof.KStretch.lean ====
/-
  What each stretch of host operations of the kernel program leaves, over ANY contents W of the buffers it starts from.
  The first stretch builds the edge list with self loops and the per-edge normalization from the edge array; each later
  stretch is one layer's aggregation of the rows it finds in a region's output buffer. Every other buffer a later step
  reads (the graph data, the arguments) is left as it was.
-/
import proofs.«105554_j11390253269710_1_alg».proof.Proof.Gen.KernelIdeal.Launch
import proofs.«105554_j11390253269710_1_alg».proof.Proof.KChain
import Idealize.ShloMosaic.Lib.StableHlo.Run

noncomputable section

namespace Cert.KernelIdeal.GCN

open Cert.KernelIdeal Cert.KernelIdeal.Gen Idealize.ShloMosaic Idealize.ShloMosaic.TcCoe Idealize.SL.Sem Idealize.ShloMosaic.StableHlo

variable {F : FTy → Type} [FloatOps F]

/-- No operation of the literal list writes the buffer: one inequality of references per operation. -/
local macro "no_write" ops:ident : tactic =>
  `(tactic| (simp only [$ops:ident, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## The first stretch: the graph data from the edge array -/

/-- The contents after the three lists of the first stretch (the outlined select stands between two lists of @main's own). -/
abbrev after0 (W : Valuation τ sig (Elt F)) : Valuation τ sig (Elt F) :=
  StableHlo.after hostOps0_2 (StableHlo.after hostOps0_1 (StableHlo.after hostOps0 W))

set_option maxHeartbeats 4000000 in
theorem after0_src (W : Valuation τ sig (Elt F)) : after0 W (Proc.devRef .tc main_v3) = src (W (Proc.devRef .tc main_arg1)) := by
  unfold after0 src
  after_results_simp <;> rfl

set_option maxHeartbeats 4000000 in
theorem after0_dst (W : Valuation τ sig (Elt F)) : after0 W (Proc.devRef .tc main_v6) = dst (W (Proc.devRef .tc main_arg1)) := by
  unfold after0 dst
  after_results_simp <;> rfl

set_option maxHeartbeats 8000000 in
theorem after0_norm (W : Valuation τ sig (Elt F)) :
    after0 W (Proc.devRef .tc main_v29) = norm (src (W (Proc.devRef .tc main_arg1))) (dst (W (Proc.devRef .tc main_arg1))) := by
  unfold after0 norm dis deg nidx src dst
  after_results_simp <;> rfl

set_option maxHeartbeats 4000000 in
/-- The first stretch writes none of the arguments. -/
theorem after0_arg (W : Valuation τ sig (Elt F)) (b : Ref sig .tc)
    (hb : b ∈ ([main_arg0, main_arg2, main_arg3, main_arg4, main_arg5, main_arg6, main_arg7] : List (Ref sig .tc))) :
    after0 W (Proc.devRef .tc b) = W (Proc.devRef .tc b) := by
  simp only [List.mem_cons, List.mem_nil_iff, or_false] at hb
  unfold after0
  rcases hb with rfl | rfl | rfl | rfl | rfl | rfl | rfl
  all_goals
    refine (StableHlo.after_of_forall_not_mem _ _ (List.forall_iff_forall_mem.mp (by no_write hostOps0_2))).trans
      ((StableHlo.after_of_forall_not_mem _ _ (List.forall_iff_forall_mem.mp (by no_write hostOps0_1))).trans
        (StableHlo.after_of_forall_not_mem _ _ (List.forall_iff_forall_mem.mp (by no_write hostOps0))))

/-! ## The three aggregation stretches -/

set_option maxHeartbeats 4000000 in
/-- First layer: the rows found in region 0's output, gathered along src, scaled by the norm, summed along dst. -/
theorem after1_agg (W : Valuation τ sig (Elt F)) :
    StableHlo.after hostOps1 W (Proc.devRef .tc main_v43) = agg32 (W (Proc.devRef .tc main_v3)) (W (Proc.devRef .tc main_v6)) (W (Proc.devRef .tc main_v29)) (W (Proc.devRef .tc main_v30)) := by
  unfold agg32 nidx
  after_results_simp <;> rfl

set_option maxHeartbeats 4000000 in
/-- It leaves the graph data and the arguments still to be read as they were. -/
theorem after1_keep (W : Valuation τ sig (Elt F)) (b : Ref sig .tc)
    (hb : b ∈ ([main_v3, main_v6, main_v29, main_arg3, main_arg4, main_arg5, main_arg6, main_arg7] : List (Ref sig .tc))) :
    StableHlo.after hostOps1 W (Proc.devRef .tc b) = W (Proc.devRef .tc b) := by
  simp only [List.mem_cons, List.mem_nil_iff, or_false] at hb
  rcases hb with rfl | rfl | rfl | rfl | rfl | rfl | rfl | rfl
  all_goals exact StableHlo.after_of_forall_not_mem _ _ (List.forall_iff_forall_mem.mp (by no_write hostOps1))

set_option maxHeartbeats 4000000 in
/-- Second layer: the same over region 2's output. -/
theorem after3_agg (W : Valuation τ sig (Elt F)) :
    StableHlo.after hostOps3 W (Proc.devRef .tc main_v58) = agg32 (W (Proc.devRef .tc main_v3)) (W (Proc.devRef .tc main_v6)) (W (Proc.devRef .tc main_v29)) (W (Proc.devRef .tc main_v45)) := by
  unfold agg32 nidx
  after_results_simp <;> rfl

set_option maxHeartbeats 4000000 in
theorem after3_keep (W : Valuation τ sig (Elt F)) (b : Ref sig .tc)
    (hb : b ∈ ([main_v3, main_v6, main_v29, main_arg5, main_arg6, main_arg7] : List (Ref sig .tc))) :
    StableHlo.after hostOps3 W (Proc.devRef .tc b) = W (Proc.devRef .tc b) := by
  simp only [List.mem_cons, List.mem_nil_iff, or_false] at hb
  rcases hb with rfl | rfl | rfl | rfl | rfl | rfl
  all_goals exact StableHlo.after_of_forall_not_mem _ _ (List.forall_iff_forall_mem.mp (by no_write hostOps3))

set_option maxHeartbeats 4000000 in
/-- Third layer: one column, over region 4's output. -/
theorem after5_agg (W : Valuation τ sig (Elt F)) :
    StableHlo.after hostOps5 W (Proc.devRef .tc main_v72) = agg1 (W (Proc.devRef .tc main_v3)) (W (Proc.devRef .tc main_v6)) (W (Proc.devRef .tc main_v29)) (W (Proc.devRef .tc main_v60)) := by
  unfold agg1 nidx
  after_results_simp <;> rfl

theorem after5_keep (W : Valuation τ sig (Elt F)) :
    StableHlo.after hostOps5 W (Proc.devRef .tc main_arg7) = W (Proc.devRef .tc main_arg7) :=
  StableHlo.after_of_forall_not_mem _ _ (List.forall_iff_forall_mem.mp (by no_write hostOps5))

end Cert.KernelIdeal.GCN

end
-- ==== Proof.Reg0.lean ====
/-
  Region 0 of the kernel program as one whole-array function: whatever the buffers hold when the region is entered,
  its output array ends holding the first layer's dense product of the node features and the first weight matrix, index by index.
  Each of the five grid points writes back one block of 20000 rows; block t of the result depends only on block t of
  the row operand and on the whole second operand, and the five blocks tile the array.
-/
import proofs.«105554_j11390253269710_1_alg».proof.Proof.Gen.KernelIdeal.Frame
import proofs.«105554_j11390253269710_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GCN

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The block product at an index -/

/-- The zero offsets of a whole-block access, as a constant function. -/
theorem zero_offsets : (![0, 0] : Fin 2 → Nat) = fun _ => 0 := funext fun a => by fin_cases a <;> rfl

/-- The row operand's index under the contraction: its row is the output's row. -/
theorem lhs_row (i : S20000x32.Idx) (q : dot_S20000x3_S3x32_S20000x32_1_0_0_1_n_n.contr.Idx) :
    (dot_S20000x3_S3x32_S20000x32_1_0_0_1_n_n.lhsIdx i q 0).val = (i 0).val := by
  unfold DotDims.lhsIdx
  rw [dif_neg (show ¬(0 : Fin S20000x3.rank) ∈ dot_S20000x3_S3x32_S20000x32_1_0_0_1_n_n.lhsBatch by decide), dif_pos (show (0 : Fin S20000x3.rank) ∈ dot_S20000x3_S3x32_S20000x32_1_0_0_1_n_n.lhsNonContracting by decide)]
  rfl
/-- The row operand's index under the contraction: its column is the contracted coordinate. -/
theorem lhs_col (i : S20000x32.Idx) (q : dot_S20000x3_S3x32_S20000x32_1_0_0_1_n_n.contr.Idx) :
    (dot_S20000x3_S3x32_S20000x32_1_0_0_1_n_n.lhsIdx i q 1).val = (q ⟨0, by decide⟩).val :=
  dot_S20000x3_S3x32_S20000x32_1_0_0_1_n_n.lhsIdx_val_of_single rfl i q
/-- The weight operand's index under the contraction: its row is the contracted coordinate. -/
theorem rhs_row (i : S20000x32.Idx) (q : dot_S20000x3_S3x32_S20000x32_1_0_0_1_n_n.contr.Idx) :
    (dot_S20000x3_S3x32_S20000x32_1_0_0_1_n_n.rhsIdx i q 0).val = (q ⟨0, by decide⟩).val :=
  dot_S20000x3_S3x32_S20000x32_1_0_0_1_n_n.rhsIdx_val_of_single rfl i q
/-- The weight operand's index under the contraction: its column is the output's column. -/
theorem rhs_col (i : S20000x32.Idx) (q : dot_S20000x3_S3x32_S20000x32_1_0_0_1_n_n.contr.Idx) :
    (dot_S20000x3_S3x32_S20000x32_1_0_0_1_n_n.rhsIdx i q 1).val = (i 1).val := by
  unfold DotDims.rhsIdx
  rw [dif_neg (show ¬(1 : Fin S3x32.rank) ∈ dot_S20000x3_S3x32_S20000x32_1_0_0_1_n_n.rhsBatch by decide), dif_pos (show (1 : Fin S3x32.rank) ∈ dot_S20000x3_S3x32_S20000x32_1_0_0_1_n_n.rhsNonContracting by decide)]
  rfl

/-- The body's payload at row p, column q of a block: the three-term sum over the contracted axis of the block of
    rows times the weight matrix (the narrowing of both operands is the identity on extended reals, and the
    accumulator is the zero splat). -/
theorem block_product_apply (x0 : Vec Ideal S20000x3 .f32) (x1 : Vec Ideal S3x32 .f32) (p : Fin 20000) (q : Fin 32) :
    k0_pay1 (F := Ideal) x0 x1 (ix2 p q) = ∑ k : Fin 3, x0 (ix2 p k) * x1 (ix2 k q) := by
  unfold k0_pay1
  show FloatOps.matmul dot_S20000x3_S3x32_S20000x32_1_0_0_1_n_n none (truncf (F := Ideal) .bf16 x0 bitsLt_bf16_f32) (truncf (F := Ideal) .bf16 x1 bitsLt_bf16_f32) (constant (F := Ideal) S20000x32 .f32 0x00000000#32) (ix2 p q) = _
  rw [Ideal.matmul_constant_zero_apply, ← Equiv.sum_comp (ValueIdx.contrEquiv1 dot_S20000x3_S3x32_S20000x32_1_0_0_1_n_n 3 rfl rfl).symm]
  refine Finset.sum_congr rfl fun k _ => ?_
  have hk := ValueIdx.contrEquiv1_symm_val dot_S20000x3_S3x32_S20000x32_1_0_0_1_n_n 3 rfl rfl k
  have el : dot_S20000x3_S3x32_S20000x32_1_0_0_1_n_n.lhsIdx (ix2 p q) ((ValueIdx.contrEquiv1 dot_S20000x3_S3x32_S20000x32_1_0_0_1_n_n 3 rfl rfl).symm k) = ix2 p k := funext fun a => Fin.ext (by
    match a with
    | ⟨0, _⟩ => exact lhs_row _ _
    | ⟨1, _⟩ => exact (lhs_col _ _).trans hk)
  have er : dot_S20000x3_S3x32_S20000x32_1_0_0_1_n_n.rhsIdx (ix2 p q) ((ValueIdx.contrEquiv1 dot_S20000x3_S3x32_S20000x32_1_0_0_1_n_n 3 rfl rfl).symm k) = ix2 k q := funext fun a => Fin.ext (by
    match a with
    | ⟨0, _⟩ => exact (rhs_row _ _).trans hk
    | ⟨1, _⟩ => exact rhs_col _ _)
  rw [el, er]
  rfl

/-! ## From blocks to the array -/

/-- The index maps, decided over the five grid points: the row operand's block moves with the output's block along the
    rows and stays at column block 0; the weight matrix is always its one block; the output stays at column block 0
    and its row block is at most 4. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every row block 0 … 4 of the output is some grid point's. -/
theorem index_onto : ∀ q0 : Fin 5, ∃ t : Fin cfg0.N, win0_2.index t = ![q0.val, 0] :=
  (by decide +kernel : ∀ q0 : Fin 5, ∃ t : Fin grid0.N, win0_2.index t = ![q0.val, 0])

/-- What grid point t writes back is block t of the dense product of the two input arrays as the region finds them. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.GCN.Spec.mm3x32 (V c main_arg0) (V c main_arg2)) := by
  show (cfg0.win 2).cut (grid0.coords t) ((dat0 V c).after 2 t) = _
  rw [after0_2]
  unfold out0_2
  rw [View.canon_unit_zero zero_offsets]
  simp only [View.ld_unit_zero (S := S20000x3) zero_offsets, View.ld_unit_zero (S := S3x32) zero_offsets]
  obtain ⟨e0, e1, e2, e3, e4, e5⟩ := index_facts t
  funext j
  obtain ⟨p, q, rfl⟩ : ∃ (p : Fin 20000) (q : Fin 32), j = ix2 p q := ⟨j 0, j 1, eq_ix2 j⟩
  show k0_pay1 (F := Ideal) (iblk0 V c 0 t) (iblk0 V c 1 t) (ix2 p q)
    = Cert.GCN.Spec.mm3x32 (V c main_arg0) (V c main_arg2) (((cfg0.win 2).blk t).view.emb (ix2 p q))
  rw [block_product_apply]
  have hrow : ∀ k : Fin 3, ((cfg0.win 0).blk t).view.emb (ix2 p k)
      = ix2 (⟨((((cfg0.win 2).blk t).view.emb (ix2 p q)) 0).val, ((((cfg0.win 2).blk t).view.emb (ix2 p q)) 0).isLt⟩ : Fin 100000) k := by
    intro k; funext a; apply Fin.ext
    match a with
    | ⟨0, _⟩ => show win0_0.index t (0 : Fin 2) * 20000 + 1 * p.val = win0_2.index t (0 : Fin 2) * 20000 + 1 * p.val; omega
    | ⟨1, _⟩ => show win0_0.index t (1 : Fin 2) * 3 + 1 * k.val = k.val; omega
  have hwt : ∀ k : Fin 3, ((cfg0.win 1).blk t).view.emb (ix2 k q)
      = ix2 k (⟨((((cfg0.win 2).blk t).view.emb (ix2 p q)) 1).val, ((((cfg0.win 2).blk t).view.emb (ix2 p q)) 1).isLt⟩ : Fin 32) := by
    intro k; funext a; apply Fin.ext
    match a with
    | ⟨0, _⟩ => show win0_1.index t (0 : Fin 2) * 3 + 1 * k.val = k.val; omega
    | ⟨1, _⟩ => show win0_1.index t (1 : Fin 2) * 32 + 1 * q.val = win0_2.index t (1 : Fin 2) * 32 + 1 * q.val; omega
  have hx : ∀ k : Fin 3, iblk0 V c 0 t (ix2 p k)
      = V c main_arg0 (ix2 (⟨((((cfg0.win 2).blk t).view.emb (ix2 p q)) 0).val, ((((cfg0.win 2).blk t).view.emb (ix2 p q)) 0).isLt⟩ : Fin 100000) k) := by
    intro k
    show V c main_arg0 (((cfg0.win 0).blk t).view.emb (ix2 p k)) = _
    rw [hrow k]
  have hw : ∀ k : Fin 3, iblk0 V c 1 t (ix2 k q)
      = V c main_arg2 (ix2 k (⟨((((cfg0.win 2).blk t).view.emb (ix2 p q)) 1).val, ((((cfg0.win 2).blk t).view.emb (ix2 p q)) 1).isLt⟩ : Fin 32)) := by
    intro k
    show V c main_arg2 (((cfg0.win 1).blk t).view.emb (ix2 k q)) = _
    rw [hwt k]
  unfold Cert.GCN.Spec.mm3x32
  exact Finset.sum_congr rfl fun k _ => by rw [hx k, hw k]

/-- An index of the output array is in grid point t's block iff each coordinate is in the block's range on its axis. -/
theorem mem_block (t : Fin cfg0.N) (i : S100000x32.Idx) :
    i ∈ ((cfg0.win 2).blk t).view.set ↔ ∀ a : Fin 2, win0_2.index t a * S20000x32.size a ≤ (i a).val ∧ (i a).val < win0_2.index t a * S20000x32.size a + S20000x32.size a := by
  show i ∈ ((View.whole main_v30).slice (win0_2.rect t)).set ↔ _
  rw [View.set_slice_whole, Rect.mem_set_unit]
  exact Iff.rfl

/-- The five blocks tile the output: row r lies in the block of grid point r / 20000, which is written back. -/
theorem blocks_cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := index_onto ⟨(i 0).val / 20000, by omega⟩
  have q0 : win0_2.index t (0 : Fin 2) = (i 0).val / 20000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 32 ≤ (i 1).val ∧ (i 1).val < win0_2.index t (1 : Fin 2) * 32 + 32; omega

theorem reg0_value (V : (c : Dev nD) → (b : Ref sig .tc) → Buf (Elt Ideal) ((c : Thread nD τ).loc b)) (c : Dev nD) :
    (dat0 (F := Ideal) V c).arrAt 2 cfg0.N = Cert.GCN.Spec.mm3x32 (V c main_arg0) (V c main_arg2) :=
  (dat0 V c).arrAt_eq_of_cover 2 (Cert.GCN.Spec.mm3x32 (V c main_arg0) (V c main_arg2)) (fun t _ => flushed_eq V c t) blocks_cover

end Cert.KernelIdeal.GCN

end
-- ==== Proof.Reg1.lean ====
/-
  Region 1 of the kernel program as one whole-array function: whatever the buffers hold when the region is entered,
  its output array ends holding the first layer's aggregate plus its bias, ramped, index by index.
  Each of the five grid points writes back one block of 20000 rows; block t of the result depends only on block t of
  the row operand and on the whole second operand, and the five blocks tile the array.
-/
import proofs.«105554_j11390253269710_1_alg».proof.Proof.Gen.KernelIdeal.Frame
import proofs.«105554_j11390253269710_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GCN

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The body's arithmetic at one index -/

/-- The zero offsets of a whole rank-2 rectangle, however they are spelt. -/
theorem reg1_zero_off2 : (![0, 0] : Fin 2 → Nat) = fun _ => 0 := funext fun a => by fin_cases a <;> rfl

/-- The zero offset of a whole rank-1 rectangle. -/
theorem reg1_zero_off1 : (![0] : Fin 1 → Nat) = fun _ => 0 := funext fun a => by fin_cases a <;> rfl

/-- The body's value at row `p`, column `q` of a block: the block's entry there plus the bias vector's entry at
    column `q` (the vector re-laid as one row and that row repeated down the block), ramped against zero. -/
theorem reg1_bias_ramp_at (x0 : Vec Ideal S20000x32 .f32) (x1 : Vec Ideal S32 .f32) (p : Fin 20000) (q : Fin 32) :
    k1_pay1 (F := Ideal) x0 x1 (ix2 p q)
      = FloatOps.maximumf (FloatOps.addf (x0 (ix2 p q)) (x1 (ix1 q))) (Ideal.ofBits .f32 0x00000000#32) := by
  unfold k1_pay1
  show FloatOps.maximumf (FloatOps.addf (shapeCast (α := Ideal .f32) S20000x32 x0 shapeCasts_S20000x32_S20000x32 (ix2 p q))
      (broadcastTo (α := Ideal .f32) S20000x32 (shapeCast (α := Ideal .f32) S1x32 x1 shapeCasts_S32_S1x32) broadcasts_S1x32_S20000x32 (ix2 p q))) _ = _
  rw [shapeCast_self, broadcastTo_1b_ab_apply, shapeCast_a_1a_apply]
  rfl

/-! ## From the five blocks to the array -/

/-- The windows' index maps over the five grid points: the row operand's block moves with the output's on both axes, the
    output's column block and the bias vector's block stay at zero, and the output's row block stays below five. -/
theorem reg1_idx_facts : ∀ t : Fin cfg1.N, win1_0.index t (0 : Fin 2) = win1_2.index t (0 : Fin 2)
    ∧ win1_0.index t (1 : Fin 2) = win1_2.index t (1 : Fin 2)
    ∧ win1_1.index t (0 : Fin 1) = 0
    ∧ win1_2.index t (1 : Fin 2) = 0
    ∧ win1_2.index t (0 : Fin 2) ≤ 4 :=
  (by decide +kernel : ∀ t : Fin grid1.N, _)

/-- Every row block of the output is some grid point's. -/
theorem reg1_idx_onto : ∀ q0 : Fin 5, ∃ t : Fin cfg1.N, win1_2.index t = ![q0.val, 0] :=
  (by decide +kernel : ∀ q0 : Fin 5, ∃ t : Fin grid1.N, win1_2.index t = ![q0.val, 0])

/-- What grid point `t` writes back is block `t` of the biased, ramped array of the region's two input arrays. -/
theorem reg1_flushed_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (Cert.GCN.Spec.biasRelu32 (V c main_v43) (V c main_arg3)) := by
  show (cfg1.win 2).cut (grid1.coords t) ((dat1 V c).after 2 t) = _
  rw [after1_2]
  unfold out1_2
  rw [View.canon_unit_zero reg1_zero_off2]
  simp only [View.ld_unit_zero (S := S20000x32) reg1_zero_off2, View.ld_unit_zero (S := S32) reg1_zero_off1]
  obtain ⟨e0, e1, e2, e3, e4⟩ := reg1_idx_facts t
  funext j
  obtain ⟨p, q, rfl⟩ : ∃ (p : Fin 20000) (q : Fin 32), j = ix2 p q := ⟨j 0, j 1, eq_ix2 j⟩
  show k1_pay1 (F := Ideal) (iblk1 V c 0 t) (iblk1 V c 1 t) (ix2 p q)
    = Cert.GCN.Spec.biasRelu32 (V c main_v43) (V c main_arg3) (((cfg1.win 2).blk t).view.emb (ix2 p q))
  rw [reg1_bias_ramp_at]
  have h0 : ((cfg1.win 0).blk t).view.emb (ix2 p q) = ((cfg1.win 2).blk t).view.emb (ix2 p q) := by
    funext a; apply Fin.ext
    match a with
    | ⟨0, _⟩ => show win1_0.index t (0 : Fin 2) * 20000 + 1 * p.val = win1_2.index t (0 : Fin 2) * 20000 + 1 * p.val; omega
    | ⟨1, _⟩ => show win1_0.index t (1 : Fin 2) * 32 + 1 * q.val = win1_2.index t (1 : Fin 2) * 32 + 1 * q.val; omega
  have h1 : ((cfg1.win 1).blk t).view.emb (ix1 q)
      = ix1 (⟨(((cfg1.win 2).blk t).view.emb (ix2 p q) 1).val, (((cfg1.win 2).blk t).view.emb (ix2 p q) 1).isLt⟩ : Fin 32) := by
    funext a; apply Fin.ext
    match a with
    | ⟨0, _⟩ => show win1_1.index t (0 : Fin 1) * 32 + 1 * q.val = win1_2.index t (1 : Fin 2) * 32 + 1 * q.val; omega
  show FloatOps.maximumf (FloatOps.addf (V c main_v43 (((cfg1.win 0).blk t).view.emb (ix2 p q)))
        (V c main_arg3 (((cfg1.win 1).blk t).view.emb (ix1 q)))) (Ideal.ofBits .f32 0x00000000#32)
    = FloatOps.maximumf (FloatOps.addf (V c main_v43 (((cfg1.win 2).blk t).view.emb (ix2 p q)))
        (V c main_arg3 (ix1 (⟨(((cfg1.win 2).blk t).view.emb (ix2 p q) 1).val, (((cfg1.win 2).blk t).view.emb (ix2 p q) 1).isLt⟩ : Fin 32))))
        (Ideal.ofBits .f32 0x00000000#32)
  rw [h0, h1]

/-- An index of the array is in point `t`'s block iff each coordinate lies in the block's range on its axis. -/
theorem reg1_mem_blk (t : Fin cfg1.N) (i : S100000x32.Idx) :
    i ∈ ((cfg1.win 2).blk t).view.set ↔ ∀ a : Fin 2, win1_2.index t a * S20000x32.size a ≤ (i a).val
      ∧ (i a).val < win1_2.index t a * S20000x32.size a + S20000x32.size a := by
  show i ∈ ((View.whole main_v44).slice (win1_2.rect t)).set ↔ _
  rw [View.set_slice_whole, Rect.mem_set_unit]
  exact Iff.rfl

/-- The five blocks tile the array: row `r` lies in the block of the point whose row block is `r / 20000`. -/
theorem reg1_cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := reg1_idx_onto ⟨(i 0).val / 20000, by omega⟩
  have q0 : win1_2.index t (0 : Fin 2) = (i 0).val / 20000 := congrFun ht 0
  have q1 : win1_2.index t (1 : Fin 2) = 0 := congrFun ht 1
  refine ⟨t, flush1_2 t, ?_⟩
  rw [reg1_mem_blk]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 32 ≤ (i 1).val ∧ (i 1).val < win1_2.index t (1 : Fin 2) * 32 + 32; omega

theorem reg1_value (V : (c : Dev nD) → (b : Ref sig .tc) → Buf (Elt Ideal) ((c : Thread nD τ).loc b)) (c : Dev nD) :
    (dat1 (F := Ideal) V c).arrAt 2 cfg1.N = Cert.GCN.Spec.biasRelu32 (V c main_v43) (V c main_arg3) :=
  (dat1 V c).arrAt_eq_of_cover 2 (Cert.GCN.Spec.biasRelu32 (V c main_v43) (V c main_arg3))
    (fun t _ => reg1_flushed_eq V c t) reg1_cover

end Cert.KernelIdeal.GCN

end
-- ==== Proof.Reg2.lean ====
/-
  Region 2 of the kernel program as one whole-array function: whatever the buffers hold when the region is entered,
  its output array ends holding the second layer's dense product, index by index.
  Each of the five grid points writes back one block of 20000 rows; block t of the result depends only on block t of
  the row operand and on the whole second operand, and the five blocks tile the array.
-/
import proofs.«105554_j11390253269710_1_alg».proof.Proof.Gen.KernelIdeal.Frame
import proofs.«105554_j11390253269710_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GCN

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The body's product at an index -/

/-- The zero offsets of a whole-block access, spelt as a constant function. -/
theorem mm2_zero_offsets : (![0, 0] : Fin 2 → Nat) = fun _ => 0 := funext fun a => by fin_cases a <;> rfl

/-- The row operand is read at the output's row, -/
theorem mm2_lhs_row (i : S20000x32.Idx) (q : dot_S20000x32_S32x32_S20000x32_1_0_0_1_n_n.contr.Idx) :
    (dot_S20000x32_S32x32_S20000x32_1_0_0_1_n_n.lhsIdx i q 0).val = (i 0).val := by
  unfold DotDims.lhsIdx
  rw [dif_neg (show ¬(0 : Fin S20000x32.rank) ∈ dot_S20000x32_S32x32_S20000x32_1_0_0_1_n_n.lhsBatch by decide), dif_pos (show (0 : Fin S20000x32.rank) ∈ dot_S20000x32_S32x32_S20000x32_1_0_0_1_n_n.lhsNonContracting by decide)]
  rfl
/-- and at the contracted index along its columns. -/
theorem mm2_lhs_col (i : S20000x32.Idx) (q : dot_S20000x32_S32x32_S20000x32_1_0_0_1_n_n.contr.Idx) :
    (dot_S20000x32_S32x32_S20000x32_1_0_0_1_n_n.lhsIdx i q 1).val = (q ⟨0, by decide⟩).val :=
  dot_S20000x32_S32x32_S20000x32_1_0_0_1_n_n.lhsIdx_val_of_single rfl i q
/-- The weight operand is read at the contracted index along its rows, -/
theorem mm2_rhs_row (i : S20000x32.Idx) (q : dot_S20000x32_S32x32_S20000x32_1_0_0_1_n_n.contr.Idx) :
    (dot_S20000x32_S32x32_S20000x32_1_0_0_1_n_n.rhsIdx i q 0).val = (q ⟨0, by decide⟩).val :=
  dot_S20000x32_S32x32_S20000x32_1_0_0_1_n_n.rhsIdx_val_of_single rfl i q
/-- and at the output's column. -/
theorem mm2_rhs_col (i : S20000x32.Idx) (q : dot_S20000x32_S32x32_S20000x32_1_0_0_1_n_n.contr.Idx) :
    (dot_S20000x32_S32x32_S20000x32_1_0_0_1_n_n.rhsIdx i q 1).val = (i 1).val := by
  unfold DotDims.rhsIdx
  rw [dif_neg (show ¬(1 : Fin S32x32.rank) ∈ dot_S20000x32_S32x32_S20000x32_1_0_0_1_n_n.rhsBatch by decide), dif_pos (show (1 : Fin S32x32.rank) ∈ dot_S20000x32_S32x32_S20000x32_1_0_0_1_n_n.rhsNonContracting by decide)]
  rfl

/-- The body's result at row `p`, column `q` of its block: the sum over the 32 contracted indices of the row operand's
    entry times the weight's. The narrowing of both operands is the identity on extended reals, the reshape is to the
    block's own shape, and the accumulator is the zero array. -/
theorem mm2_block_apply (x0 : Vec Ideal S20000x32 .f32) (x1 : Vec Ideal S32x32 .f32) (p : Fin 20000) (q : Fin 32) :
    k2_pay1 (F := Ideal) x0 x1 (ix2 p q) = ∑ k : Fin 32, x0 (ix2 p k) * x1 (ix2 k q) := by
  unfold k2_pay1
  rw [shapeCast_self]
  refine (Ideal.matmul_constant_zero_apply dot_S20000x32_S32x32_S20000x32_1_0_0_1_n_n none _ _ (ix2 p q)).trans ?_
  rw [← Equiv.sum_comp (ValueIdx.contrEquiv1 dot_S20000x32_S32x32_S20000x32_1_0_0_1_n_n 32 rfl rfl).symm]
  refine Finset.sum_congr rfl fun k _ => ?_
  have hk := ValueIdx.contrEquiv1_symm_val dot_S20000x32_S32x32_S20000x32_1_0_0_1_n_n 32 rfl rfl k
  have el : dot_S20000x32_S32x32_S20000x32_1_0_0_1_n_n.lhsIdx (ix2 p q) ((ValueIdx.contrEquiv1 dot_S20000x32_S32x32_S20000x32_1_0_0_1_n_n 32 rfl rfl).symm k) = ix2 p k := funext fun a => Fin.ext (by
    match a with
    | ⟨0, _⟩ => exact mm2_lhs_row _ _
    | ⟨1, _⟩ => exact (mm2_lhs_col _ _).trans hk)
  have er : dot_S20000x32_S32x32_S20000x32_1_0_0_1_n_n.rhsIdx (ix2 p q) ((ValueIdx.contrEquiv1 dot_S20000x32_S32x32_S20000x32_1_0_0_1_n_n 32 rfl rfl).symm k) = ix2 k q := funext fun a => Fin.ext (by
    match a with
    | ⟨0, _⟩ => exact (mm2_rhs_row _ _).trans hk
    | ⟨1, _⟩ => exact mm2_rhs_col _ _)
  rw [el, er]
  rfl

/-! ## From the five blocks to the array -/

/-- The index maps, decided over the five grid points: the row operand's block moves with the output's along
    the rows and sits at column block 0; the weight is its one whole block at every point; the output's row block
    index is the point's, at most 4, at column block 0. -/
theorem mm2_index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 4
    ∧ win2_2.index t (1 : Fin 2) = 0 :=
  (by decide +kernel : ∀ t : Fin grid2.N, _)

/-- Every row block 0 … 4 is some point's. -/
theorem mm2_index_onto : ∀ (b : Fin 5), ∃ t : Fin cfg2.N, win2_2.index t = ![b.val, 0] :=
  (by decide +kernel : ∀ (b : Fin 5), ∃ t : Fin grid2.N, win2_2.index t = ![b.val, 0])

/-- What point `t` writes back is block `t` of the second layer's dense product of the two arrays as the region finds them. -/
theorem mm2_flushed (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Cert.GCN.Spec.mm32x32 (V c main_v44) (V c main_arg4)) := by
  show (cfg2.win 2).cut (grid2.coords t) ((dat2 (F := Ideal) V c).after 2 t) = _
  rw [after2_2]
  unfold out2_2
  rw [View.canon_unit_zero mm2_zero_offsets]
  simp only [View.ld_unit_zero (S := S20000x32) mm2_zero_offsets, View.ld_unit_zero (S := S32x32) mm2_zero_offsets]
  obtain ⟨e0, e1, e2, e3, e4, e5⟩ := mm2_index_facts t
  funext j
  obtain ⟨p, q, rfl⟩ : ∃ (p : Fin 20000) (q : Fin 32), j = ix2 p q := ⟨j 0, j 1, eq_ix2 j⟩
  show k2_pay1 (F := Ideal) (iblk2 V c 0 t) (iblk2 V c 1 t) (ix2 p q) = Cert.GCN.Spec.mm32x32 (V c main_v44) (V c main_arg4) (((cfg2.win 2).blk t).view.emb (ix2 p q))
  refine (mm2_block_apply _ _ p q).trans ?_
  unfold Cert.GCN.Spec.mm32x32
  refine Finset.sum_congr rfl fun k _ => ?_
  refine congrArg₂ (· * ·) ?_ ?_
  · -- the row operand's block at (p, k) is the array at the output block's row and column k
    show (V c main_v44 : S100000x32.Idx → Elt Ideal .f32) (((cfg2.win 0).blk t).view.emb (ix2 p k)) = _
    refine congrArg _ ?_
    funext a; apply Fin.ext
    match a with
    | ⟨0, _⟩ => show win2_0.index t (0 : Fin 2) * 20000 + 1 * p.val = win2_2.index t (0 : Fin 2) * 20000 + 1 * p.val; omega
    | ⟨1, _⟩ => show win2_0.index t (1 : Fin 2) * 32 + 1 * k.val = k.val; omega
  · -- the weight's one block at (k, q) is the array at row k and the output block's column
    show (V c main_arg4 : S32x32.Idx → Elt Ideal .f32) (((cfg2.win 1).blk t).view.emb (ix2 k q)) = _
    refine congrArg _ ?_
    funext a; apply Fin.ext
    match a with
    | ⟨0, _⟩ => show win2_1.index t (0 : Fin 2) * 32 + 1 * k.val = k.val; omega
    | ⟨1, _⟩ => show win2_1.index t (1 : Fin 2) * 32 + 1 * q.val = win2_2.index t (1 : Fin 2) * 32 + 1 * q.val; omega

/-- An index of the array is in point `t`'s block iff each coordinate is in the block's range on its axis. -/
theorem mm2_mem_block (t : Fin cfg2.N) (i : S100000x32.Idx) :
    i ∈ ((cfg2.win 2).blk t).view.set ↔ ∀ a : Fin 2, win2_2.index t a * S20000x32.size a ≤ (i a).val ∧ (i a).val < win2_2.index t a * S20000x32.size a + S20000x32.size a := by
  show i ∈ ((View.whole main_v45).slice (win2_2.rect t)).set ↔ _
  rw [View.set_slice_whole, Rect.mem_set_unit]
  exact Iff.rfl

/-- The five blocks tile the array: row `r` lies in the block of the point whose row block index is `r / 20000`. -/
theorem mm2_cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := mm2_index_onto ⟨(i 0).val / 20000, by omega⟩
  have q0 : win2_2.index t (0 : Fin 2) = (i 0).val / 20000 := congrFun ht 0
  have q1 : win2_2.index t (1 : Fin 2) = 0 := congrFun ht 1
  refine ⟨t, flush2_2 t, ?_⟩
  rw [mm2_mem_block]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 32 ≤ (i 1).val ∧ (i 1).val < win2_2.index t (1 : Fin 2) * 32 + 32; omega

theorem reg2_value (V : (c : Dev nD) → (b : Ref sig .tc) → Buf (Elt Ideal) ((c : Thread nD τ).loc b)) (c : Dev nD) :
    (dat2 (F := Ideal) V c).arrAt 2 cfg2.N = Cert.GCN.Spec.mm32x32 (V c main_v44) (V c main_arg4) := by
  exact (dat2 (F := Ideal) V c).arrAt_eq_of_cover 2 (Cert.GCN.Spec.mm32x32 (V c main_v44) (V c main_arg4))
    (fun t _ => mm2_flushed V c t) mm2_cover

end Cert.KernelIdeal.GCN

end
-- ==== Proof.Reg3.lean ====
/-
  Region 3 of the kernel program as one whole-array function: whatever the buffers hold when the region is entered,
  its output array ends holding the second layer's aggregate plus its bias, ramped, index by index.
  Each of the five grid points writes back one block of 20000 rows; block t of the result depends only on block t of
  the row operand and on the whole second operand, and the five blocks tile the array.
-/
import proofs.«105554_j11390253269710_1_alg».proof.Proof.Gen.KernelIdeal.Frame
import proofs.«105554_j11390253269710_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GCN

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The body's arithmetic at one index -/

/-- The zero offsets of a whole rank-2 rectangle, however they are spelt. -/
theorem reg3_zero_off2 : (![0, 0] : Fin 2 → Nat) = fun _ => 0 := funext fun a => by fin_cases a <;> rfl

/-- The zero offset of a whole rank-1 rectangle. -/
theorem reg3_zero_off1 : (![0] : Fin 1 → Nat) = fun _ => 0 := funext fun a => by fin_cases a <;> rfl

/-- The body's value at row `p`, column `q` of a block: the block's entry there plus the bias vector's entry at
    column `q` (the vector re-laid as one row and that row repeated down the block), ramped against zero. -/
theorem reg3_bias_ramp_at (x0 : Vec Ideal S20000x32 .f32) (x1 : Vec Ideal S32 .f32) (p : Fin 20000) (q : Fin 32) :
    k3_pay1 (F := Ideal) x0 x1 (ix2 p q)
      = FloatOps.maximumf (FloatOps.addf (x0 (ix2 p q)) (x1 (ix1 q))) (Ideal.ofBits .f32 0x00000000#32) := by
  unfold k3_pay1
  show FloatOps.maximumf (FloatOps.addf (shapeCast (α := Ideal .f32) S20000x32 x0 shapeCasts_S20000x32_S20000x32 (ix2 p q))
      (broadcastTo (α := Ideal .f32) S20000x32 (shapeCast (α := Ideal .f32) S1x32 x1 shapeCasts_S32_S1x32) broadcasts_S1x32_S20000x32 (ix2 p q))) _ = _
  rw [shapeCast_self, broadcastTo_1b_ab_apply, shapeCast_a_1a_apply]
  rfl

/-! ## From the five blocks to the array -/

/-- The windows' index maps over the five grid points: the row operand's block moves with the output's on both axes, the
    output's column block and the bias vector's block stay at zero, and the output's row block stays below five. -/
theorem reg3_idx_facts : ∀ t : Fin cfg3.N, win3_0.index t (0 : Fin 2) = win3_2.index t (0 : Fin 2)
    ∧ win3_0.index t (1 : Fin 2) = win3_2.index t (1 : Fin 2)
    ∧ win3_1.index t (0 : Fin 1) = 0
    ∧ win3_2.index t (1 : Fin 2) = 0
    ∧ win3_2.index t (0 : Fin 2) ≤ 4 :=
  (by decide +kernel : ∀ t : Fin grid3.N, _)

/-- Every row block of the output is some grid point's. -/
theorem reg3_idx_onto : ∀ q0 : Fin 5, ∃ t : Fin cfg3.N, win3_2.index t = ![q0.val, 0] :=
  (by decide +kernel : ∀ q0 : Fin 5, ∃ t : Fin grid3.N, win3_2.index t = ![q0.val, 0])

/-- What grid point `t` writes back is block `t` of the biased, ramped array of the region's two input arrays. -/
theorem reg3_flushed_eq (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal) (Cert.GCN.Spec.biasRelu32 (V c main_v58) (V c main_arg5)) := by
  show (cfg3.win 2).cut (grid3.coords t) ((dat3 V c).after 2 t) = _
  rw [after3_2]
  unfold out3_2
  rw [View.canon_unit_zero reg3_zero_off2]
  simp only [View.ld_unit_zero (S := S20000x32) reg3_zero_off2, View.ld_unit_zero (S := S32) reg3_zero_off1]
  obtain ⟨e0, e1, e2, e3, e4⟩ := reg3_idx_facts t
  funext j
  obtain ⟨p, q, rfl⟩ : ∃ (p : Fin 20000) (q : Fin 32), j = ix2 p q := ⟨j 0, j 1, eq_ix2 j⟩
  show k3_pay1 (F := Ideal) (iblk3 V c 0 t) (iblk3 V c 1 t) (ix2 p q)
    = Cert.GCN.Spec.biasRelu32 (V c main_v58) (V c main_arg5) (((cfg3.win 2).blk t).view.emb (ix2 p q))
  rw [reg3_bias_ramp_at]
  have h0 : ((cfg3.win 0).blk t).view.emb (ix2 p q) = ((cfg3.win 2).blk t).view.emb (ix2 p q) := by
    funext a; apply Fin.ext
    match a with
    | ⟨0, _⟩ => show win3_0.index t (0 : Fin 2) * 20000 + 1 * p.val = win3_2.index t (0 : Fin 2) * 20000 + 1 * p.val; omega
    | ⟨1, _⟩ => show win3_0.index t (1 : Fin 2) * 32 + 1 * q.val = win3_2.index t (1 : Fin 2) * 32 + 1 * q.val; omega
  have h1 : ((cfg3.win 1).blk t).view.emb (ix1 q)
      = ix1 (⟨(((cfg3.win 2).blk t).view.emb (ix2 p q) 1).val, (((cfg3.win 2).blk t).view.emb (ix2 p q) 1).isLt⟩ : Fin 32) := by
    funext a; apply Fin.ext
    match a with
    | ⟨0, _⟩ => show win3_1.index t (0 : Fin 1) * 32 + 1 * q.val = win3_2.index t (1 : Fin 2) * 32 + 1 * q.val; omega
  show FloatOps.maximumf (FloatOps.addf (V c main_v58 (((cfg3.win 0).blk t).view.emb (ix2 p q)))
        (V c main_arg5 (((cfg3.win 1).blk t).view.emb (ix1 q)))) (Ideal.ofBits .f32 0x00000000#32)
    = FloatOps.maximumf (FloatOps.addf (V c main_v58 (((cfg3.win 2).blk t).view.emb (ix2 p q)))
        (V c main_arg5 (ix1 (⟨(((cfg3.win 2).blk t).view.emb (ix2 p q) 1).val, (((cfg3.win 2).blk t).view.emb (ix2 p q) 1).isLt⟩ : Fin 32))))
        (Ideal.ofBits .f32 0x00000000#32)
  rw [h0, h1]

/-- An index of the array is in point `t`'s block iff each coordinate lies in the block's range on its axis. -/
theorem reg3_mem_blk (t : Fin cfg3.N) (i : S100000x32.Idx) :
    i ∈ ((cfg3.win 2).blk t).view.set ↔ ∀ a : Fin 2, win3_2.index t a * S20000x32.size a ≤ (i a).val
      ∧ (i a).val < win3_2.index t a * S20000x32.size a + S20000x32.size a := by
  show i ∈ ((View.whole main_v59).slice (win3_2.rect t)).set ↔ _
  rw [View.set_slice_whole, Rect.mem_set_unit]
  exact Iff.rfl

/-- The five blocks tile the array: row `r` lies in the block of the point whose row block is `r / 20000`. -/
theorem reg3_cover (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := reg3_idx_onto ⟨(i 0).val / 20000, by omega⟩
  have q0 : win3_2.index t (0 : Fin 2) = (i 0).val / 20000 := congrFun ht 0
  have q1 : win3_2.index t (1 : Fin 2) = 0 := congrFun ht 1
  refine ⟨t, flush3_2 t, ?_⟩
  rw [reg3_mem_blk]
  intro a
  match a with
  | ⟨0, _⟩ => show win3_2.index t (0 : Fin 2) * 20000 ≤ (i 0).val ∧ (i 0).val < win3_2.index t (0 : Fin 2) * 20000 + 20000; omega
  | ⟨1, _⟩ => show win3_2.index t (1 : Fin 2) * 32 ≤ (i 1).val ∧ (i 1).val < win3_2.index t (1 : Fin 2) * 32 + 32; omega

theorem reg3_value (V : (c : Dev nD) → (b : Ref sig .tc) → Buf (Elt Ideal) ((c : Thread nD τ).loc b)) (c : Dev nD) :
    (dat3 (F := Ideal) V c).arrAt 2 cfg3.N = Cert.GCN.Spec.biasRelu32 (V c main_v58) (V c main_arg5) :=
  (dat3 V c).arrAt_eq_of_cover 2 (Cert.GCN.Spec.biasRelu32 (V c main_v58) (V c main_arg5))
    (fun t _ => reg3_flushed_eq V c t) reg3_cover

end Cert.KernelIdeal.GCN

end
-- ==== Proof.Reg4.lean ====
/-
  Region 4 of the kernel program as one whole-array function: whatever the buffers hold when the region is entered,
  its output array ends holding the third layer's dense product, index by index.
  Each of the five grid points writes back one block of 20000 rows; block t of the result depends only on block t of
  the row operand and on the whole second operand, and the five blocks tile the array.
-/
import proofs.«105554_j11390253269710_1_alg».proof.Proof.Gen.KernelIdeal.Frame
import proofs.«105554_j11390253269710_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GCN

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The body's product at an index -/

/-- The zero offsets of a whole-block access, spelt as a constant function. -/
theorem mm4_zero_offsets : (![0, 0] : Fin 2 → Nat) = fun _ => 0 := funext fun a => by fin_cases a <;> rfl

/-- The row operand is read at the output's row, -/
theorem mm4_lhs_row (i : S20000x1.Idx) (q : dot_S20000x32_S32x1_S20000x1_1_0_0_1_n_n.contr.Idx) :
    (dot_S20000x32_S32x1_S20000x1_1_0_0_1_n_n.lhsIdx i q 0).val = (i 0).val := by
  unfold DotDims.lhsIdx
  rw [dif_neg (show ¬(0 : Fin S20000x32.rank) ∈ dot_S20000x32_S32x1_S20000x1_1_0_0_1_n_n.lhsBatch by decide), dif_pos (show (0 : Fin S20000x32.rank) ∈ dot_S20000x32_S32x1_S20000x1_1_0_0_1_n_n.lhsNonContracting by decide)]
  rfl
/-- and at the contracted index along its columns. -/
theorem mm4_lhs_col (i : S20000x1.Idx) (q : dot_S20000x32_S32x1_S20000x1_1_0_0_1_n_n.contr.Idx) :
    (dot_S20000x32_S32x1_S20000x1_1_0_0_1_n_n.lhsIdx i q 1).val = (q ⟨0, by decide⟩).val :=
  dot_S20000x32_S32x1_S20000x1_1_0_0_1_n_n.lhsIdx_val_of_single rfl i q
/-- The weight operand is read at the contracted index along its rows, -/
theorem mm4_rhs_row (i : S20000x1.Idx) (q : dot_S20000x32_S32x1_S20000x1_1_0_0_1_n_n.contr.Idx) :
    (dot_S20000x32_S32x1_S20000x1_1_0_0_1_n_n.rhsIdx i q 0).val = (q ⟨0, by decide⟩).val :=
  dot_S20000x32_S32x1_S20000x1_1_0_0_1_n_n.rhsIdx_val_of_single rfl i q
/-- and at the output's column. -/
theorem mm4_rhs_col (i : S20000x1.Idx) (q : dot_S20000x32_S32x1_S20000x1_1_0_0_1_n_n.contr.Idx) :
    (dot_S20000x32_S32x1_S20000x1_1_0_0_1_n_n.rhsIdx i q 1).val = (i 1).val := by
  unfold DotDims.rhsIdx
  rw [dif_neg (show ¬(1 : Fin S32x1.rank) ∈ dot_S20000x32_S32x1_S20000x1_1_0_0_1_n_n.rhsBatch by decide), dif_pos (show (1 : Fin S32x1.rank) ∈ dot_S20000x32_S32x1_S20000x1_1_0_0_1_n_n.rhsNonContracting by decide)]
  rfl

/-- The body's result at row `p`, column `q` of its block: the sum over the 32 contracted indices of the row operand's
    entry times the weight's. The narrowing of both operands is the identity on extended reals, the reshape is to the
    block's own shape, and the accumulator is the zero array. -/
theorem mm4_block_apply (x0 : Vec Ideal S20000x32 .f32) (x1 : Vec Ideal S32x1 .f32) (p : Fin 20000) (q : Fin 1) :
    k4_pay1 (F := Ideal) x0 x1 (ix2 p q) = ∑ k : Fin 32, x0 (ix2 p k) * x1 (ix2 k q) := by
  unfold k4_pay1
  rw [shapeCast_self]
  refine (Ideal.matmul_constant_zero_apply dot_S20000x32_S32x1_S20000x1_1_0_0_1_n_n none _ _ (ix2 p q)).trans ?_
  rw [← Equiv.sum_comp (ValueIdx.contrEquiv1 dot_S20000x32_S32x1_S20000x1_1_0_0_1_n_n 32 rfl rfl).symm]
  refine Finset.sum_congr rfl fun k _ => ?_
  have hk := ValueIdx.contrEquiv1_symm_val dot_S20000x32_S32x1_S20000x1_1_0_0_1_n_n 32 rfl rfl k
  have el : dot_S20000x32_S32x1_S20000x1_1_0_0_1_n_n.lhsIdx (ix2 p q) ((ValueIdx.contrEquiv1 dot_S20000x32_S32x1_S20000x1_1_0_0_1_n_n 32 rfl rfl).symm k) = ix2 p k := funext fun a => Fin.ext (by
    match a with
    | ⟨0, _⟩ => exact mm4_lhs_row _ _
    | ⟨1, _⟩ => exact (mm4_lhs_col _ _).trans hk)
  have er : dot_S20000x32_S32x1_S20000x1_1_0_0_1_n_n.rhsIdx (ix2 p q) ((ValueIdx.contrEquiv1 dot_S20000x32_S32x1_S20000x1_1_0_0_1_n_n 32 rfl rfl).symm k) = ix2 k q := funext fun a => Fin.ext (by
    match a with
    | ⟨0, _⟩ => exact (mm4_rhs_row _ _).trans hk
    | ⟨1, _⟩ => exact mm4_rhs_col _ _)
  rw [el, er]
  rfl

/-! ## From the five blocks to the array -/

/-- The index maps, decided over the five grid points: the row operand's block moves with the output's along
    the rows and sits at column block 0; the weight is its one whole block at every point; the output's row block
    index is the point's, at most 4, at column block 0. -/
theorem mm4_index_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 4
    ∧ win4_2.index t (1 : Fin 2) = 0 :=
  (by decide +kernel : ∀ t : Fin grid4.N, _)

/-- Every row block 0 … 4 is some point's. -/
theorem mm4_index_onto : ∀ (b : Fin 5), ∃ t : Fin cfg4.N, win4_2.index t = ![b.val, 0] :=
  (by decide +kernel : ∀ (b : Fin 5), ∃ t : Fin grid4.N, win4_2.index t = ![b.val, 0])

/-- What point `t` writes back is block `t` of the third layer's dense product of the two arrays as the region finds them. -/
theorem mm4_flushed (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal) (Cert.GCN.Spec.mm32x1 (V c main_v59) (V c main_arg6)) := by
  show (cfg4.win 2).cut (grid4.coords t) ((dat4 (F := Ideal) V c).after 2 t) = _
  rw [after4_2]
  unfold out4_2
  rw [View.canon_unit_zero mm4_zero_offsets]
  simp only [View.ld_unit_zero (S := S20000x32) mm4_zero_offsets, View.ld_unit_zero (S := S32x1) mm4_zero_offsets]
  obtain ⟨e0, e1, e2, e3, e4, e5⟩ := mm4_index_facts t
  funext j
  obtain ⟨p, q, rfl⟩ : ∃ (p : Fin 20000) (q : Fin 1), j = ix2 p q := ⟨j 0, j 1, eq_ix2 j⟩
  show k4_pay1 (F := Ideal) (iblk4 V c 0 t) (iblk4 V c 1 t) (ix2 p q) = Cert.GCN.Spec.mm32x1 (V c main_v59) (V c main_arg6) (((cfg4.win 2).blk t).view.emb (ix2 p q))
  refine (mm4_block_apply _ _ p q).trans ?_
  unfold Cert.GCN.Spec.mm32x1
  refine Finset.sum_congr rfl fun k _ => ?_
  refine congrArg₂ (· * ·) ?_ ?_
  · -- the row operand's block at (p, k) is the array at the output block's row and column k
    show (V c main_v59 : S100000x32.Idx → Elt Ideal .f32) (((cfg4.win 0).blk t).view.emb (ix2 p k)) = _
    refine congrArg _ ?_
    funext a; apply Fin.ext
    match a with
    | ⟨0, _⟩ => show win4_0.index t (0 : Fin 2) * 20000 + 1 * p.val = win4_2.index t (0 : Fin 2) * 20000 + 1 * p.val; omega
    | ⟨1, _⟩ => show win4_0.index t (1 : Fin 2) * 32 + 1 * k.val = k.val; omega
  · -- the weight's one block at (k, q) is the array at row k and the output block's column
    show (V c main_arg6 : S32x1.Idx → Elt Ideal .f32) (((cfg4.win 1).blk t).view.emb (ix2 k q)) = _
    refine congrArg _ ?_
    funext a; apply Fin.ext
    match a with
    | ⟨0, _⟩ => show win4_1.index t (0 : Fin 2) * 32 + 1 * k.val = k.val; omega
    | ⟨1, _⟩ => show win4_1.index t (1 : Fin 2) * 1 + 1 * q.val = win4_2.index t (1 : Fin 2) * 1 + 1 * q.val; omega

/-- An index of the array is in point `t`'s block iff each coordinate is in the block's range on its axis. -/
theorem mm4_mem_block (t : Fin cfg4.N) (i : S100000x1.Idx) :
    i ∈ ((cfg4.win 2).blk t).view.set ↔ ∀ a : Fin 2, win4_2.index t a * S20000x1.size a ≤ (i a).val ∧ (i a).val < win4_2.index t a * S20000x1.size a + S20000x1.size a := by
  show i ∈ ((View.whole main_v60).slice (win4_2.rect t)).set ↔ _
  rw [View.set_slice_whole, Rect.mem_set_unit]
  exact Iff.rfl

/-- The five blocks tile the array: row `r` lies in the block of the point whose row block index is `r / 20000`. -/
theorem mm4_cover (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  obtain ⟨t, ht⟩ := mm4_index_onto ⟨(i 0).val / 20000, by omega⟩
  have q0 : win4_2.index t (0 : Fin 2) = (i 0).val / 20000 := congrFun ht 0
  have q1 : win4_2.index t (1 : Fin 2) = 0 := congrFun ht 1
  refine ⟨t, flush4_2 t, ?_⟩
  rw [mm4_mem_block]
  intro a
  match a with
  | ⟨0, _⟩ => show win4_2.index t (0 : Fin 2) * 20000 ≤ (i 0).val ∧ (i 0).val < win4_2.index t (0 : Fin 2) * 20000 + 20000; omega
  | ⟨1, _⟩ => show win4_2.index t (1 : Fin 2) * 1 ≤ (i 1).val ∧ (i 1).val < win4_2.index t (1 : Fin 2) * 1 + 1; omega

theorem reg4_value (V : (c : Dev nD) → (b : Ref sig .tc) → Buf (Elt Ideal) ((c : Thread nD τ).loc b)) (c : Dev nD) :
    (dat4 (F := Ideal) V c).arrAt 2 cfg4.N = Cert.GCN.Spec.mm32x1 (V c main_v59) (V c main_arg6) := by
  exact (dat4 (F := Ideal) V c).arrAt_eq_of_cover 2 (Cert.GCN.Spec.mm32x1 (V c main_v59) (V c main_arg6))
    (fun t _ => mm4_flushed V c t) mm4_cover

end Cert.KernelIdeal.GCN

end
-- ==== Proof.Reg5.lean ====
/-
  Region 5 of the kernel program as one whole-array function: whatever the buffers hold when the region is entered,
  its output array ends holding the third layer's aggregate plus its bias, index by index.
  Each of the five grid points writes back one block of 20000 rows; block t of the result depends only on block t of
  the row operand and on the whole second operand, and the five blocks tile the array.
-/
import proofs.«105554_j11390253269710_1_alg».proof.Proof.Gen.KernelIdeal.Frame
import proofs.«105554_j11390253269710_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GCN

open Cert.KernelIdeal Cert.KernelIdeal.Gen Idealize.ShloMosaic Idealize.ShloMosaic.TcCoe Idealize.SL.Sem Idealize.ShloMosaic.ValueIdx
open Idealize.ShloMosaic.Pipeline (Dat Cfg Window)

/-- The zero offsets of the body's whole-block rectangle on the rows-by-one block, as a constant function. -/
theorem block_offsets_zero : (![0, 0] : Fin 2 → Nat) = fun _ => 0 := funext fun a => by fin_cases a <;> rfl

/-- The zero offset of the body's whole rectangle on the one-entry bias vector, as a constant function. -/
theorem bias_offset_zero : (![0] : Fin 1 → Nat) = fun _ => 0 := funext fun a => by fin_cases a <;> rfl

/-- The body's arithmetic at the entry in row `p`, column `q` of its block: the block's entry there plus the bias
    entry of that column (the bias vector re-laid as one row and repeated down the 20000 rows). -/
theorem bias_payload_apply (x0 : FVec Ideal S20000x1 .f32) (x1 : FVec Ideal S1 .f32) (p : Fin 20000) (q : Fin 1) :
    k5_pay1 x0 x1 (ix2 p q) = FloatOps.addf (x0 (ix2 p q)) (x1 (ix1 q)) := by
  unfold k5_pay1
  show FloatOps.addf (shapeCast S20000x1 x0 shapeCasts_S20000x1_S20000x1 (ix2 p q))
      (broadcastTo S20000x1 (shapeCast S1x1 x1 shapeCasts_S1_S1x1) broadcasts_S1x1_S20000x1 (ix2 p q)) = _
  rw [shapeCast_self, broadcastTo_1b_ab_apply, shapeCast_a_1a_apply]

/-- The same at any index of the block, the column read off the index. -/
theorem bias_payload_at (x0 : FVec Ideal S20000x1 .f32) (x1 : FVec Ideal S1 .f32) (j : S20000x1.Idx) :
    k5_pay1 x0 x1 j = FloatOps.addf (x0 j) (x1 (ix1 (⟨(j 1).val, idx2_lt1 j⟩ : Fin 1))) := by
  obtain ⟨p, q, rfl⟩ : ∃ (p : Fin 20000) (q : Fin 1), j = ix2 p q := ⟨j 0, j 1, eq_ix2 j⟩
  exact bias_payload_apply x0 x1 p q

/-- The windows' index maps over the five grid points: the row operand's block moves with the output's block
    on both axes, the bias vector's block stays at 0, and the output's block indices stay in their ranges. -/
theorem block_index_facts : ∀ t : Fin cfg5.N, win5_0.index t (0 : Fin 2) = win5_2.index t (0 : Fin 2)
    ∧ win5_0.index t (1 : Fin 2) = win5_2.index t (1 : Fin 2)
    ∧ win5_1.index t (0 : Fin 1) = 0
    ∧ win5_2.index t (0 : Fin 2) ≤ 4
    ∧ win5_2.index t (1 : Fin 2) ≤ 0 :=
  (by decide +kernel : ∀ t : Fin grid5.N, _)

/-- Every row block 0 … 4 of the output is some grid point's. -/
theorem block_index_onto : ∀ (q0 : Fin 5), ∃ t : Fin cfg5.N, win5_2.index t = ![q0.val, 0] :=
  (by decide +kernel : ∀ (q0 : Fin 5), ∃ t : Fin grid5.N, win5_2.index t = ![q0.val, 0])

/-- What grid point `t` writes back is block `t` of the whole-array bias sum of the two arrays as the region finds
    them. -/
theorem flushed_block_eq (V : (c : Dev nD) → (b : Ref sig .tc) → Buf (Elt Ideal) ((c : Thread nD τ).loc b)) (c : Dev nD)
    (t : Fin cfg5.N) :
    (dat5 (F := Ideal) V c).flushed 2 t
      = ((cfg5.win 2).blk t).view.read (Elt Ideal) (Cert.GCN.Spec.bias1 (V c main_v72) (V c main_arg7)) := by
  show (cfg5.win 2).cut (grid5.coords t) ((dat5 V c).after 2 t) = _
  rw [after5_2]
  unfold out5_2
  rw [View.canon_unit_zero block_offsets_zero]
  simp only [View.ld_unit_zero (S := S20000x1) block_offsets_zero, View.ld_unit_zero (S := S1) bias_offset_zero]
  obtain ⟨e0, e1, e2, e3, e4⟩ := block_index_facts t
  refine funext fun (j : S20000x1.Idx) => ?_
  show k5_pay1 (iblk5 V c 0 t) (iblk5 V c 1 t) j
      = Cert.GCN.Spec.bias1 (V c main_v72) (V c main_arg7) (((cfg5.win 2).blk t).view.emb j)
  refine (bias_payload_at _ _ j).trans ?_
  show FloatOps.addf (F := Ideal) (φ := .f32) (V c main_v72 (((cfg5.win 0).blk t).view.emb j))
        (V c main_arg7 (((cfg5.win 1).blk t).view.emb (ix1 (⟨(j 1).val, idx2_lt1 j⟩ : Fin 1))))
      = FloatOps.addf (F := Ideal) (φ := .f32) (V c main_v72 (((cfg5.win 2).blk t).view.emb j))
        (V c main_arg7 (ix1 (⟨((((cfg5.win 2).blk t).view.emb j) 1).val, ((((cfg5.win 2).blk t).view.emb j) 1).isLt⟩ : Fin 1)))
  have hrow : ((cfg5.win 0).blk t).view.emb j = ((cfg5.win 2).blk t).view.emb j := by
    funext a; apply Fin.ext
    match a with
    | ⟨0, _⟩ => show win5_0.index t (0 : Fin 2) * 20000 + 1 * (j 0).val = win5_2.index t (0 : Fin 2) * 20000 + 1 * (j 0).val; omega
    | ⟨1, _⟩ => show win5_0.index t (1 : Fin 2) * 1 + 1 * (j 1).val = win5_2.index t (1 : Fin 2) * 1 + 1 * (j 1).val; omega
  have hbias : ((cfg5.win 1).blk t).view.emb (ix1 (⟨(j 1).val, idx2_lt1 j⟩ : Fin 1))
      = ix1 (⟨((((cfg5.win 2).blk t).view.emb j) 1).val, ((((cfg5.win 2).blk t).view.emb j) 1).isLt⟩ : Fin 1) := by
    funext a; apply Fin.ext
    match a with
    | ⟨0, _⟩ =>
      show win5_1.index t (0 : Fin 1) * 1 + 1 * (j 1).val = win5_2.index t (1 : Fin 2) * 1 + 1 * (j 1).val
      omega
  rw [hrow, hbias]

/-- An index of the output array is in grid point `t`'s block iff each coordinate is in the block's range on its axis. -/
theorem mem_output_block (t : Fin cfg5.N) (i : S100000x1.Idx) :
    i ∈ ((cfg5.win 2).blk t).view.set ↔ ∀ a : Fin 2, win5_2.index t a * S20000x1.size a ≤ (i a).val
      ∧ (i a).val < win5_2.index t a * S20000x1.size a + S20000x1.size a := by
  show i ∈ ((View.whole main_v73).slice (win5_2.rect t)).set ↔ _
  rw [View.set_slice_whole, Rect.mem_set_unit]
  exact Iff.rfl

/-- The five blocks tile the output array: row `r` lies in the block of the grid point whose block index is
    `r / 20000`, and every grid point writes its block back. -/
theorem output_blocks_cover (i : S100000x1.Idx) :
    ∃ t : Fin cfg5.N, (cfg5.win 2).flush t = true ∧ i ∈ ((cfg5.win 2).blk t).view.set := by
  have hi0 : (i 0).val < 100000 := (i 0).isLt
  have hi1 : (i 1).val < 1 := (i 1).isLt
  obtain ⟨t, ht⟩ := block_index_onto ⟨(i 0).val / 20000, by omega⟩
  have q0 : win5_2.index t (0 : Fin 2) = (i 0).val / 20000 := congrFun ht 0
  have q1 : win5_2.index t (1 : Fin 2) = 0 := congrFun ht 1
  refine ⟨t, flush5_2 t, ?_⟩
  rw [mem_output_block]
  intro a
  match a with
  | ⟨0, _⟩ =>
    show win5_2.index t (0 : Fin 2) * 20000 ≤ (i 0).val ∧ (i 0).val < win5_2.index t (0 : Fin 2) * 20000 + 20000
    omega
  | ⟨1, _⟩ =>
    show win5_2.index t (1 : Fin 2) * 1 ≤ (i 1).val ∧ (i 1).val < win5_2.index t (1 : Fin 2) * 1 + 1
    omega

theorem reg5_value (V : (c : Dev nD) → (b : Ref sig .tc) → Buf (Elt Ideal) ((c : Thread nD τ).loc b)) (c : Dev nD) :
    (dat5 (F := Ideal) V c).arrAt 2 cfg5.N = Cert.GCN.Spec.bias1 (V c main_v72) (V c main_arg7) := by
  exact (dat5 V c).arrAt_eq_of_cover 2 (Cert.GCN.Spec.bias1 (V c main_v72) (V c main_arg7))
    (fun t _ => flushed_block_eq V c t) output_blocks_cover

end Cert.KernelIdeal.GCN

end
-- ==== Proof.KFold.lean ====
/-
  The fold through the kernel program's twelve segments, read at the result: what the last region's output array holds
  is the three composed layers of the arguments. Each boundary's contents are read only at the buffers a later step reads:
  the graph data (edge lists with self loops, per-edge norm), the arguments still to come, and the running activations.
  A host stretch leaves what its operations compute and keeps every other buffer; a region leaves its whole-array function
  of its two inputs in its output array and keeps every buffer that is not one of its three arrays.
-/
import proofs.«105554_j11390253269710_1_alg».proof.Proof.Gen.KernelIdeal.Frame
import proofs.«105554_j11390253269710_1_alg».proof.Proof.KStretch
import proofs.«105554_j11390253269710_1_alg».proof.Proof.Reg0
import proofs.«105554_j11390253269710_1_alg».proof.Proof.Reg1
import proofs.«105554_j11390253269710_1_alg».proof.Proof.Reg2
import proofs.«105554_j11390253269710_1_alg».proof.Proof.Reg3
import proofs.«105554_j11390253269710_1_alg».proof.Proof.Reg4
import proofs.«105554_j11390253269710_1_alg».proof.Proof.Reg5

set_option maxRecDepth 16384

noncomputable section

namespace Cert.KernelIdeal.GCN

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch (region 0's entry) -/

theorem W3_src : W3 m ρ c (Proc.devRef .tc main_v3) = src (m ((c : Thread nD τ).loc main_arg1)) := after0_src (W0 m ρ c)
theorem W3_dst : W3 m ρ c (Proc.devRef .tc main_v6) = dst (m ((c : Thread nD τ).loc main_arg1)) := after0_dst (W0 m ρ c)
theorem W3_norm : W3 m ρ c (Proc.devRef .tc main_v29) = norm (src (m ((c : Thread nD τ).loc main_arg1))) (dst (m ((c : Thread nD τ).loc main_arg1))) := after0_norm (W0 m ρ c)
theorem W3_arg0 : W3 m ρ c (Proc.devRef .tc main_arg0) = m ((c : Thread nD τ).loc main_arg0) := after0_arg (W0 m ρ c) main_arg0 (by simp)
theorem W3_arg2 : W3 m ρ c (Proc.devRef .tc main_arg2) = m ((c : Thread nD τ).loc main_arg2) := after0_arg (W0 m ρ c) main_arg2 (by simp)
theorem W3_arg3 : W3 m ρ c (Proc.devRef .tc main_arg3) = m ((c : Thread nD τ).loc main_arg3) := after0_arg (W0 m ρ c) main_arg3 (by simp)
theorem W3_arg4 : W3 m ρ c (Proc.devRef .tc main_arg4) = m ((c : Thread nD τ).loc main_arg4) := after0_arg (W0 m ρ c) main_arg4 (by simp)
theorem W3_arg5 : W3 m ρ c (Proc.devRef .tc main_arg5) = m ((c : Thread nD τ).loc main_arg5) := after0_arg (W0 m ρ c) main_arg5 (by simp)
theorem W3_arg6 : W3 m ρ c (Proc.devRef .tc main_arg6) = m ((c : Thread nD τ).loc main_arg6) := after0_arg (W0 m ρ c) main_arg6 (by simp)
theorem W3_arg7 : W3 m ρ c (Proc.devRef .tc main_arg7) = m ((c : Thread nD τ).loc main_arg7) := after0_arg (W0 m ρ c) main_arg7 (by simp)

/-! ## The graph data at the three boundaries where an aggregation reads it -/

theorem W4_src : W4 m ρ c (Proc.devRef .tc main_v3) = src (m ((c : Thread nD τ).loc main_arg1)) := (W4_of_ne m ρ c main_v3 (by decide)).trans (W3_src m ρ c)
theorem W7_src : W7 m ρ c (Proc.devRef .tc main_v3) = src (m ((c : Thread nD τ).loc main_arg1)) :=
  (W7_of_ne m ρ c main_v3 (by decide)).trans ((W6_of_ne m ρ c main_v3 (by decide)).trans ((after1_keep (W4 m ρ c) main_v3 (by simp)).trans (W4_src m ρ c)))
theorem W10_src : W10 m ρ c (Proc.devRef .tc main_v3) = src (m ((c : Thread nD τ).loc main_arg1)) :=
  (W10_of_ne m ρ c main_v3 (by decide)).trans ((W9_of_ne m ρ c main_v3 (by decide)).trans ((after3_keep (W7 m ρ c) main_v3 (by simp)).trans (W7_src m ρ c)))
theorem W4_dst : W4 m ρ c (Proc.devRef .tc main_v6) = dst (m ((c : Thread nD τ).loc main_arg1)) := (W4_of_ne m ρ c main_v6 (by decide)).trans (W3_dst m ρ c)
theorem W7_dst : W7 m ρ c (Proc.devRef .tc main_v6) = dst (m ((c : Thread nD τ).loc main_arg1)) :=
  (W7_of_ne m ρ c main_v6 (by decide)).trans ((W6_of_ne m ρ c main_v6 (by decide)).trans ((after1_keep (W4 m ρ c) main_v6 (by simp)).trans (W4_dst m ρ c)))
theorem W10_dst : W10 m ρ c (Proc.devRef .tc main_v6) = dst (m ((c : Thread nD τ).loc main_arg1)) :=
  (W10_of_ne m ρ c main_v6 (by decide)).trans ((W9_of_ne m ρ c main_v6 (by decide)).trans ((after3_keep (W7 m ρ c) main_v6 (by simp)).trans (W7_dst m ρ c)))
theorem W4_norm : W4 m ρ c (Proc.devRef .tc main_v29) = norm (src (m ((c : Thread nD τ).loc main_arg1))) (dst (m ((c : Thread nD τ).loc main_arg1))) := (W4_of_ne m ρ c main_v29 (by decide)).trans (W3_norm m ρ c)
theorem W7_norm : W7 m ρ c (Proc.devRef .tc main_v29) = norm (src (m ((c : Thread nD τ).loc main_arg1))) (dst (m ((c : Thread nD τ).loc main_arg1))) :=
  (W7_of_ne m ρ c main_v29 (by decide)).trans ((W6_of_ne m ρ c main_v29 (by decide)).trans ((after1_keep (W4 m ρ c) main_v29 (by simp)).trans (W4_norm m ρ c)))
theorem W10_norm : W10 m ρ c (Proc.devRef .tc main_v29) = norm (src (m ((c : Thread nD τ).loc main_arg1))) (dst (m ((c : Thread nD τ).loc main_arg1))) :=
  (W10_of_ne m ρ c main_v29 (by decide)).trans ((W9_of_ne m ρ c main_v29 (by decide)).trans ((after3_keep (W7 m ρ c) main_v29 (by simp)).trans (W7_norm m ρ c)))

/-! ## Each later argument at the boundary where its region reads it -/

theorem W5_arg3 : W5 m ρ c (Proc.devRef .tc main_arg3) = m ((c : Thread nD τ).loc main_arg3) :=
  (after1_keep (W4 m ρ c) main_arg3 (by simp)).trans ((W4_of_ne m ρ c main_arg3 (by decide)).trans (W3_arg3 m ρ c))
theorem W6_arg4 : W6 m ρ c (Proc.devRef .tc main_arg4) = m ((c : Thread nD τ).loc main_arg4) :=
  (W6_of_ne m ρ c main_arg4 (by decide)).trans ((after1_keep (W4 m ρ c) main_arg4 (by simp)).trans ((W4_of_ne m ρ c main_arg4 (by decide)).trans (W3_arg4 m ρ c)))
theorem W7_arg5 : W7 m ρ c (Proc.devRef .tc main_arg5) = m ((c : Thread nD τ).loc main_arg5) :=
  (W7_of_ne m ρ c main_arg5 (by decide)).trans ((W6_of_ne m ρ c main_arg5 (by decide)).trans ((after1_keep (W4 m ρ c) main_arg5 (by simp)).trans ((W4_of_ne m ρ c main_arg5 (by decide)).trans (W3_arg5 m ρ c))))
theorem W7_arg6 : W7 m ρ c (Proc.devRef .tc main_arg6) = m ((c : Thread nD τ).loc main_arg6) :=
  (W7_of_ne m ρ c main_arg6 (by decide)).trans ((W6_of_ne m ρ c main_arg6 (by decide)).trans ((after1_keep (W4 m ρ c) main_arg6 (by simp)).trans ((W4_of_ne m ρ c main_arg6 (by decide)).trans (W3_arg6 m ρ c))))
theorem W7_arg7 : W7 m ρ c (Proc.devRef .tc main_arg7) = m ((c : Thread nD τ).loc main_arg7) :=
  (W7_of_ne m ρ c main_arg7 (by decide)).trans ((W6_of_ne m ρ c main_arg7 (by decide)).trans ((after1_keep (W4 m ρ c) main_arg7 (by simp)).trans ((W4_of_ne m ρ c main_arg7 (by decide)).trans (W3_arg7 m ρ c))))
theorem W8_arg5 : W8 m ρ c (Proc.devRef .tc main_arg5) = m ((c : Thread nD τ).loc main_arg5) := (after3_keep (W7 m ρ c) main_arg5 (by simp)).trans (W7_arg5 m ρ c)
theorem W9_arg6 : W9 m ρ c (Proc.devRef .tc main_arg6) = m ((c : Thread nD τ).loc main_arg6) :=
  (W9_of_ne m ρ c main_arg6 (by decide)).trans ((after3_keep (W7 m ρ c) main_arg6 (by simp)).trans (W7_arg6 m ρ c))
theorem W11_arg7 : W11 m ρ c (Proc.devRef .tc main_arg7) = m ((c : Thread nD τ).loc main_arg7) :=
  (after5_keep (W10 m ρ c)).trans ((W10_of_ne m ρ c main_arg7 (by decide)).trans ((W9_of_ne m ρ c main_arg7 (by decide)).trans ((after3_keep (W7 m ρ c) main_arg7 (by simp)).trans (W7_arg7 m ρ c))))

/-! ## The activations, layer by layer -/

/-- Region 0 leaves the first dense product. -/
theorem W4_h1 : W4 m ρ c (Proc.devRef .tc main_v30) = Cert.GCN.Spec.mm3x32 (m ((c : Thread nD τ).loc main_arg0)) (m ((c : Thread nD τ).loc main_arg2)) :=
  (W4_arr m ρ c 2).trans ((reg0_value (V3 m ρ) c).trans (congrArg₂ Cert.GCN.Spec.mm3x32 (W3_arg0 m ρ c) (W3_arg2 m ρ c)))

/-- The first aggregation. -/
theorem W5_a1 : W5 m ρ c (Proc.devRef .tc main_v43) = agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm3x32 (m ((c : Thread nD τ).loc main_arg0)) (m ((c : Thread nD τ).loc main_arg2))) := by
  refine (after1_agg (W4 m ρ c)).trans ?_
  rw [W4_src m ρ c, W4_dst m ρ c, W4_norm m ρ c, W4_h1 m ρ c]

/-- Region 1 adds the first bias and ramps. -/
theorem W6_r1 : W6 m ρ c (Proc.devRef .tc main_v44) = Cert.GCN.Spec.biasRelu32 (agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm3x32 (m ((c : Thread nD τ).loc main_arg0)) (m ((c : Thread nD τ).loc main_arg2)))) (m ((c : Thread nD τ).loc main_arg3)) :=
  (W6_arr m ρ c 2).trans ((reg1_value (V5 m ρ) c).trans (congrArg₂ Cert.GCN.Spec.biasRelu32 (W5_a1 m ρ c) (W5_arg3 m ρ c)))

/-- Region 2 leaves the second dense product. -/
theorem W7_h2 : W7 m ρ c (Proc.devRef .tc main_v45) = Cert.GCN.Spec.mm32x32 (Cert.GCN.Spec.biasRelu32 (agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm3x32 (m ((c : Thread nD τ).loc main_arg0)) (m ((c : Thread nD τ).loc main_arg2)))) (m ((c : Thread nD τ).loc main_arg3))) (m ((c : Thread nD τ).loc main_arg4)) :=
  (W7_arr m ρ c 2).trans ((reg2_value (V6 m ρ) c).trans (congrArg₂ Cert.GCN.Spec.mm32x32 (W6_r1 m ρ c) (W6_arg4 m ρ c)))

/-- The second aggregation. -/
theorem W8_a2 : W8 m ρ c (Proc.devRef .tc main_v58) = agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm32x32 (Cert.GCN.Spec.biasRelu32 (agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm3x32 (m ((c : Thread nD τ).loc main_arg0)) (m ((c : Thread nD τ).loc main_arg2)))) (m ((c : Thread nD τ).loc main_arg3))) (m ((c : Thread nD τ).loc main_arg4))) := by
  refine (after3_agg (W7 m ρ c)).trans ?_
  rw [W7_src m ρ c, W7_dst m ρ c, W7_norm m ρ c, W7_h2 m ρ c]

/-- Region 3 adds the second bias and ramps. -/
theorem W9_r2 : W9 m ρ c (Proc.devRef .tc main_v59) = Cert.GCN.Spec.biasRelu32 (agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm32x32 (Cert.GCN.Spec.biasRelu32 (agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm3x32 (m ((c : Thread nD τ).loc main_arg0)) (m ((c : Thread nD τ).loc main_arg2)))) (m ((c : Thread nD τ).loc main_arg3))) (m ((c : Thread nD τ).loc main_arg4)))) (m ((c : Thread nD τ).loc main_arg5)) :=
  (W9_arr m ρ c 2).trans ((reg3_value (V8 m ρ) c).trans (congrArg₂ Cert.GCN.Spec.biasRelu32 (W8_a2 m ρ c) (W8_arg5 m ρ c)))

/-- Region 4 leaves the third dense product, one column. -/
theorem W10_h3 : W10 m ρ c (Proc.devRef .tc main_v60) = Cert.GCN.Spec.mm32x1 (Cert.GCN.Spec.biasRelu32 (agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm32x32 (Cert.GCN.Spec.biasRelu32 (agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm3x32 (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)) :=
  (W10_arr m ρ c 2).trans ((reg4_value (V9 m ρ) c).trans (congrArg₂ Cert.GCN.Spec.mm32x1 (W9_r2 m ρ c) (W9_arg6 m ρ c)))

/-- The third aggregation. -/
theorem W11_a3 : W11 m ρ c (Proc.devRef .tc main_v72) = agg1 (src (m ((c : Thread nD τ).loc main_arg1))) (dst (m ((c : Thread nD τ).loc main_arg1))) (norm (src (m ((c : Thread nD τ).loc main_arg1))) (dst (m ((c : Thread nD τ).loc main_arg1)))) (Cert.GCN.Spec.mm32x1 (Cert.GCN.Spec.biasRelu32 (agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm32x32 (Cert.GCN.Spec.biasRelu32 (agg32 (src (m ((c : Thread nD τ).loc main_arg1))) (dst (m ((c : Thread nD τ).loc main_arg1))) (norm (src (m ((c : Thread nD τ).loc main_arg1))) (dst (m ((c : Thread nD τ).loc main_arg1)))) (Cert.GCN.Spec.mm3x32 (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6))) := by
  refine (after5_agg (W10 m ρ c)).trans ?_
  rw [W10_src m ρ c, W10_dst m ρ c, W10_norm m ρ c, W10_h3 m ρ c]

/-- Region 5 adds the last bias: the result array holds the three composed layers of the arguments. -/
theorem W12_out : W12 m ρ c (Proc.devRef .tc main_v73) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((reg5_value (V11 m ρ) c).trans (congrArg₂ Cert.GCN.Spec.bias1 (W11_a3 m ρ c) (W11_arg7 m ρ c)))

end Cert.KernelIdeal.GCN

end
-- ==== Proof.RefValue.lean ====
/-
  The reference's result, read one operation at a time, is the three composed layers of KChain's out: its dense
  products are the sums of Spec, its bias / ramp steps Spec's pointwise functions, and its aggregation the shared host text.
-/
import proofs.«105554_j11390253269710_1_alg».proof.Proof.RefRun
import proofs.«105554_j11390253269710_1_alg».proof.Proof.RefRead
import proofs.«105554_j11390253269710_1_alg».proof.Proof.KChain

noncomputable section

open scoped BigOperators

namespace Cert.ReferenceIdeal.GCN

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

section Shared

variable {F : FTy → Type} [FloatOps F]

/-- The edge sources with the self loops appended. -/
theorem v3_eq (x1 : (⟨S2x6400000, .i32⟩ : BufTy).Contents (Elt F)) :
    val_main_v3 (F := F) x1 = Cert.KernelIdeal.GCN.src x1 := by
  unfold val_main_v3 val_main_v2 val_main_v1 val_main_v0 Cert.KernelIdeal.GCN.src
  rfl

/-- The edge targets with the self loops appended. -/
theorem v6_eq (x1 : (⟨S2x6400000, .i32⟩ : BufTy).Contents (Elt F)) :
    val_main_v6 (F := F) x1 = Cert.KernelIdeal.GCN.dst x1 := by
  unfold val_main_v6 val_main_v5 val_main_v4 val_main_v0 Cert.KernelIdeal.GCN.dst
  rfl

/-- The wrapped source column, first reading. -/
theorem v20_eq (x1 : (⟨S2x6400000, .i32⟩ : BufTy).Contents (Elt F)) :
    val_main_v20 (F := F) x1 = Cert.KernelIdeal.GCN.nidx (val_main_v3 (F := F) x1) := by
  unfold val_main_v20 val_main_v19 val_main_v16 val_main_v18 val_main_v15 val_main_v17 val_main_c val_main_c_3
    Cert.KernelIdeal.GCN.nidx
  rfl

/-- The wrapped target column. -/
theorem v27_eq (x1 : (⟨S2x6400000, .i32⟩ : BufTy).Contents (Elt F)) :
    val_main_v27 (F := F) x1 = Cert.KernelIdeal.GCN.nidx (val_main_v6 (F := F) x1) := by
  unfold val_main_v27 val_main_v26 val_main_v23 val_main_v25 val_main_v22 val_main_v24 val_main_c_4 val_main_c_5
    Cert.KernelIdeal.GCN.nidx
  rfl

/-- The wrapped source column, as the first layer reads it again. -/
theorem v36_eq (x1 : (⟨S2x6400000, .i32⟩ : BufTy).Contents (Elt F)) :
    val_main_v36 (F := F) x1 = Cert.KernelIdeal.GCN.nidx (val_main_v3 (F := F) x1) := by
  unfold val_main_v36 val_main_v35 val_main_v32 val_main_v34 val_main_v31 val_main_v33 val_main_c_6 val_main_c_7
    Cert.KernelIdeal.GCN.nidx
  rfl

/-- The wrapped source column, as the second layer reads it again. -/
theorem v54_eq (x1 : (⟨S2x6400000, .i32⟩ : BufTy).Contents (Elt F)) :
    val_main_v54 (F := F) x1 = Cert.KernelIdeal.GCN.nidx (val_main_v3 (F := F) x1) := by
  unfold val_main_v54 val_main_v53 val_main_v50 val_main_v52 val_main_v49 val_main_v51 val_main_c_9 val_main_c_10
    Cert.KernelIdeal.GCN.nidx
  rfl

/-- The wrapped source column, as the third layer reads it again. -/
theorem v72_eq (x1 : (⟨S2x6400000, .i32⟩ : BufTy).Contents (Elt F)) :
    val_main_v72 (F := F) x1 = Cert.KernelIdeal.GCN.nidx (val_main_v3 (F := F) x1) := by
  unfold val_main_v72 val_main_v71 val_main_v68 val_main_v70 val_main_v67 val_main_v69 val_main_c_12 val_main_c_13
    Cert.KernelIdeal.GCN.nidx
  rfl

/-- The in-degree. -/
theorem v10_eq (x1 : (⟨S2x6400000, .i32⟩ : BufTy).Contents (Elt F)) :
    val_main_v10 (F := F) x1 = Cert.KernelIdeal.GCN.deg (val_main_v6 (F := F) x1) := by
  unfold val_main_v10 val_main_v8 val_main_v9 val_main_v7 val_main_cst val_main_cst_0 Cert.KernelIdeal.GCN.deg
  rfl

/-- The inverse square root of the in-degree where it is positive, else zero. -/
theorem v14_eq (x1 : (⟨S2x6400000, .i32⟩ : BufTy).Contents (Elt F)) :
    val_main_v14 (F := F) x1 = Cert.KernelIdeal.GCN.dis (val_main_v6 (F := F) x1) := by
  unfold val_main_v14 val_main_v12 val_main_v13 val_main_call0_v1 val_main_call0_v0 val_main_v11 val_main_cst_1
    val_main_cst_2 Cert.KernelIdeal.GCN.dis
  rw [v10_eq]

/-- The per-edge normalization. -/
theorem v29_eq (x1 : (⟨S2x6400000, .i32⟩ : BufTy).Contents (Elt F)) :
    val_main_v29 (F := F) x1
      = Cert.KernelIdeal.GCN.norm (Cert.KernelIdeal.GCN.src x1) (Cert.KernelIdeal.GCN.dst x1) := by
  unfold val_main_v29 val_main_v21 val_main_v28 Cert.KernelIdeal.GCN.norm
  rw [v14_eq, v20_eq, v27_eq, v3_eq, v6_eq]
  rfl

end Shared

section SharedAgg

variable {F : FTy → Type} [FloatOps F]

/-- The first layer's aggregation, with the dense product it reads left as it is. -/
theorem layer1_agg (x0 : (⟨S100000x3, .f32⟩ : BufTy).Contents (Elt F)) (x1 : (⟨S2x6400000, .i32⟩ : BufTy).Contents (Elt F)) (x2 : (⟨S3x32, .f32⟩ : BufTy).Contents (Elt F)) :
    val_main_v43 (F := F) x0 x1 x2
      = Cert.KernelIdeal.GCN.agg32 (Cert.KernelIdeal.GCN.src x1) (Cert.KernelIdeal.GCN.dst x1)
        (Cert.KernelIdeal.GCN.norm (Cert.KernelIdeal.GCN.src x1) (Cert.KernelIdeal.GCN.dst x1))
        (val_main_v30 (F := F) x0 x2) := by
  unfold val_main_v43 val_main_v41 val_main_v42 val_main_v40 val_main_v37 val_main_v39 val_main_v38 val_main_cst_8
    Cert.KernelIdeal.GCN.agg32
  rw [v36_eq, v29_eq, v6_eq, v3_eq]
  rfl

/-- The second layer's aggregation, with the dense product it reads left as it is. -/
theorem layer2_agg (x0 : (⟨S100000x3, .f32⟩ : BufTy).Contents (Elt F)) (x1 : (⟨S2x6400000, .i32⟩ : BufTy).Contents (Elt F)) (x2 : (⟨S3x32, .f32⟩ : BufTy).Contents (Elt F)) (x3 : (⟨S32, .f32⟩ : BufTy).Contents (Elt F)) (x4 : (⟨S32x32, .f32⟩ : BufTy).Contents (Elt F)) :
    val_main_v61 (F := F) x0 x1 x2 x3 x4
      = Cert.KernelIdeal.GCN.agg32 (Cert.KernelIdeal.GCN.src x1) (Cert.KernelIdeal.GCN.dst x1)
        (Cert.KernelIdeal.GCN.norm (Cert.KernelIdeal.GCN.src x1) (Cert.KernelIdeal.GCN.dst x1))
        (val_main_v48 (F := F) x0 x1 x2 x3 x4) := by
  unfold val_main_v61 val_main_v59 val_main_v60 val_main_v58 val_main_v55 val_main_v57 val_main_v56 val_main_cst_11
    Cert.KernelIdeal.GCN.agg32
  rw [v54_eq, v29_eq, v6_eq, v3_eq]
  rfl

/-- The third layer's aggregation, with the dense product it reads left as it is. -/
theorem layer3_agg (x0 : (⟨S100000x3, .f32⟩ : BufTy).Contents (Elt F)) (x1 : (⟨S2x6400000, .i32⟩ : BufTy).Contents (Elt F)) (x2 : (⟨S3x32, .f32⟩ : BufTy).Contents (Elt F)) (x3 : (⟨S32, .f32⟩ : BufTy).Contents (Elt F)) (x4 : (⟨S32x32, .f32⟩ : BufTy).Contents (Elt F)) (x5 : (⟨S32, .f32⟩ : BufTy).Contents (Elt F)) (x6 : (⟨S32x1, .f32⟩ : BufTy).Contents (Elt F)) :
    val_main_v78 (F := F) x0 x1 x2 x3 x4 x5 x6
      = Cert.KernelIdeal.GCN.agg1 (Cert.KernelIdeal.GCN.src x1) (Cert.KernelIdeal.GCN.dst x1)
        (Cert.KernelIdeal.GCN.norm (Cert.KernelIdeal.GCN.src x1) (Cert.KernelIdeal.GCN.dst x1))
        (val_main_v66 (F := F) x0 x1 x2 x3 x4 x5 x6) := by
  unfold val_main_v78 val_main_v76 val_main_v77 val_main_v75 val_main_v73 val_main_v74 val_main_cst_14
    Cert.KernelIdeal.GCN.agg1
  rw [v72_eq, v29_eq, v6_eq, v3_eq]
  rfl

end SharedAgg

section Layers

/-- The first dense product is the sum over the three input features. -/
theorem v30_eq (x0 : (⟨S100000x3, .f32⟩ : BufTy).Contents (Elt Ideal)) (x2 : (⟨S3x32, .f32⟩ : BufTy).Contents (Elt Ideal)) :
    val_main_v30 (F := Ideal) x0 x2 = Cert.GCN.Spec.mm3x32 x0 x2 := by
  funext i
  rw [val_main_v30_apply]
  unfold Cert.GCN.Spec.mm3x32
  refine Finset.sum_congr rfl fun k _ => ?_
  have el : lidx_main_v30 i k = ix2 (⟨(i 0).val, (i 0).isLt⟩ : Fin 100000) k :=
    funext fun a => by match a with | ⟨0, _⟩ => rfl | ⟨1, _⟩ => rfl
  have er : ridx_main_v30 i k = ix2 k (⟨(i 1).val, (i 1).isLt⟩ : Fin 32) :=
    funext fun a => by match a with | ⟨0, _⟩ => rfl | ⟨1, _⟩ => rfl
  rw [el, er]

/-- The second dense product is the sum over the thirty-two hidden features. -/
theorem v48_eq (x0 : (⟨S100000x3, .f32⟩ : BufTy).Contents (Elt Ideal)) (x1 : (⟨S2x6400000, .i32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) :
    val_main_v48 (F := Ideal) x0 x1 x2 x3 x4 = Cert.GCN.Spec.mm32x32 (val_main_v47 (F := Ideal) x0 x1 x2 x3) x4 := by
  funext i
  rw [val_main_v48_apply]
  unfold Cert.GCN.Spec.mm32x32
  generalize val_main_v47 (F := Ideal) x0 x1 x2 x3 = y
  refine Finset.sum_congr rfl fun k _ => ?_
  have el : lidx_main_v48 i k = ix2 (⟨(i 0).val, (i 0).isLt⟩ : Fin 100000) k :=
    funext fun a => by match a with | ⟨0, _⟩ => rfl | ⟨1, _⟩ => rfl
  have er : ridx_main_v48 i k = ix2 k (⟨(i 1).val, (i 1).isLt⟩ : Fin 32) :=
    funext fun a => by match a with | ⟨0, _⟩ => rfl | ⟨1, _⟩ => rfl
  rw [el, er]

/-- The third dense product is the sum over the thirty-two hidden features, into the one output column. -/
theorem v66_eq (x0 : (⟨S100000x3, .f32⟩ : BufTy).Contents (Elt Ideal)) (x1 : (⟨S2x6400000, .i32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) :
    val_main_v66 (F := Ideal) x0 x1 x2 x3 x4 x5 x6
      = Cert.GCN.Spec.mm32x1 (val_main_v65 (F := Ideal) x0 x1 x2 x3 x4 x5) x6 := by
  funext i
  rw [val_main_v66_apply]
  unfold Cert.GCN.Spec.mm32x1
  generalize val_main_v65 (F := Ideal) x0 x1 x2 x3 x4 x5 = y
  refine Finset.sum_congr rfl fun k _ => ?_
  have el : lidx_main_v66 i k = ix2 (⟨(i 0).val, (i 0).isLt⟩ : Fin 100000) k :=
    funext fun a => by match a with | ⟨0, _⟩ => rfl | ⟨1, _⟩ => rfl
  have er : ridx_main_v66 i k = ix2 k (⟨(i 1).val, (i 1).isLt⟩ : Fin 1) :=
    funext fun a => by match a with | ⟨0, _⟩ => rfl | ⟨1, _⟩ => rfl
  rw [el, er]

/-- The first layer's bias along the columns and its ramp. -/
theorem v47_eq (x0 : (⟨S100000x3, .f32⟩ : BufTy).Contents (Elt Ideal)) (x1 : (⟨S2x6400000, .i32⟩ : BufTy).Contents (Elt Ideal)) (x2 : (⟨S3x32, .f32⟩ : BufTy).Contents (Elt Ideal)) (x3 : (⟨S32, .f32⟩ : BufTy).Contents (Elt Ideal)) :
    val_main_v47 (F := Ideal) x0 x1 x2 x3 = Cert.GCN.Spec.biasRelu32 (val_main_v43 (F := Ideal) x0 x1 x2) x3 := by
  funext i
  rw [val_main_v47_apply, val_main_v46_apply, val_main_v45_apply, val_main_v44_apply, val_main_call1_v0_apply,
    val_main_call1_cst_apply]
  unfold Cert.GCN.Spec.biasRelu32
  generalize val_main_v43 (F := Ideal) x0 x1 x2 = y
  have e : idx_main_v44 (idx_main_v45 i) = ix1 (⟨(i 1).val, (i 1).isLt⟩ : Fin 32) :=
    funext fun a => by match a with | ⟨0, _⟩ => rfl
  rw [e]
  rfl

/-- The second layer's bias along the columns and its ramp. -/
theorem v65_eq (x0 : (⟨S100000x3, .f32⟩ : BufTy).Contents (Elt Ideal)) (x1 : (⟨S2x6400000, .i32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v65 (F := Ideal) x0 x1 x2 x3 x4 x5
      = Cert.GCN.Spec.biasRelu32 (val_main_v61 (F := Ideal) x0 x1 x2 x3 x4) x5 := by
  funext i
  rw [val_main_v65_apply, val_main_v64_apply, val_main_v63_apply, val_main_v62_apply, val_main_call2_v0_apply,
    val_main_call2_cst_apply]
  unfold Cert.GCN.Spec.biasRelu32
  generalize val_main_v61 (F := Ideal) x0 x1 x2 x3 x4 = y
  have e : idx_main_v62 (idx_main_v63 i) = ix1 (⟨(i 1).val, (i 1).isLt⟩ : Fin 32) :=
    funext fun a => by match a with | ⟨0, _⟩ => rfl
  rw [e]
  rfl

/-- The third layer's bias along its one column. -/
theorem v81_eq (x0 : (⟨S100000x3, .f32⟩ : BufTy).Contents (Elt Ideal)) (x1 : (⟨S2x6400000, .i32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) :
    val_main_v81 (F := Ideal) x0 x1 x2 x3 x4 x5 x6 x7
      = Cert.GCN.Spec.bias1 (val_main_v78 (F := Ideal) x0 x1 x2 x3 x4 x5 x6) x7 := by
  funext i
  rw [val_main_v81_apply, val_main_v80_apply, val_main_v79_apply]
  unfold Cert.GCN.Spec.bias1
  generalize val_main_v78 (F := Ideal) x0 x1 x2 x3 x4 x5 x6 = y
  have e : idx_main_v79 (idx_main_v80 i) = ix1 (⟨(i 1).val, (i 1).isLt⟩ : Fin 1) :=
    funext fun a => by match a with | ⟨0, _⟩ => exact Fin.ext (by have h : (i 1).val < 1 := (i 1).isLt; show 0 = (i 1).val; omega)
  rw [e]

end Layers

theorem ref_value (x0 : (⟨S100000x3, .f32⟩ : BufTy).Contents (Elt Ideal)) (x1 : (⟨S2x6400000, .i32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) :
    Cert.ReferenceIdeal.ReadP.val_main_v81 (F := Ideal) x0 x1 x2 x3 x4 x5 x6 x7 = Cert.KernelIdeal.GCN.out x0 x1 x2 x3 x4 x5 x6 x7 := by
  unfold Cert.KernelIdeal.GCN.out
  rw [v81_eq, layer3_agg, v66_eq, v65_eq, layer2_agg, v48_eq, v47_eq, layer1_agg, v30_eq]

end Cert.ReferenceIdeal.GCN

end
-- ==== Proof.lean ====
/-
  A three-layer graph convolution: each layer is  agg(X · W) + b, with a ramp after the first two, where agg gathers rows
  along the edges' sources, scales each by the symmetric degree normalization, and sums them into the edges' targets.
  The kernel program computes each dense product X · W and each bias / ramp step in a region of its own, five blocks of
  20000 rows each, and leaves the edge-indexed gather and scatter-add to the host; the reference does everything on the host.
  Over the extended reals the two are one function of the arguments:
    * a region's output array is one whole-array function of its two input arrays (Reg0 … Reg5): block t of the product
      depends on block t of the rows and on all of the weights, and the blocks tile the array; the rounding of the operands
      to a shorter format before the product is the identity here, and the product into a zero accumulator is the plain sum;
    * the host text between the regions is literally the reference's (KChain), so it is carried as functions and never opened;
    * folding the segments from the launch memory to the last region gives the composed layers (KFold), and the reference's
      run, read one operation at a time, gives the same composition (RefValue).
  No law of the extended reals beyond reindexing a finite sum is used, so the precondition is never opened.
  The ideal pass rewrote nothing, so the kernel program's idealization claim is the trivial one.
-/
import proofs.«105554_j11390253269710_1_alg».proof.Defs
import proofs.«105554_j11390253269710_1_alg».proof.Proof.Gen.Kernel
import proofs.«105554_j11390253269710_1_alg».proof.Proof.Gen.Kernel.Frame
import proofs.«105554_j11390253269710_1_alg».proof.Proof.Gen.KernelIdeal
import proofs.«105554_j11390253269710_1_alg».proof.Proof.Gen.KernelIdeal.Frame
import proofs.«105554_j11390253269710_1_alg».proof.Proof.Gen.ReferenceIdeal
import proofs.«105554_j11390253269710_1_alg».proof.Proof.Gen.Pre_finite_inputs
import proofs.«105554_j11390253269710_1_alg».proof.Proof.RefRun
import proofs.«105554_j11390253269710_1_alg».proof.Proof.RefRead
import proofs.«105554_j11390253269710_1_alg».proof.Proof.KRun
import proofs.«105554_j11390253269710_1_alg».proof.Proof.KFold
import proofs.«105554_j11390253269710_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the three composed layers of the arguments in their result array. -/
theorem algebraic : Cert.algebraic_KernelIdeal_ReferenceIdeal := by
  intro m ρ m' ρ' _ hagree
  refine ⟨fun c => Cert.KernelIdeal.GCN.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.GCN.W12_out m ρ c), (h c).2⟩)
      (Cert.KernelIdeal.GenP.run_out (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v81_eq, h0, h1, h2, h3, h4, h5, h6, h7]
    exact Cert.ReferenceIdeal.GCN.ref_value _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
